-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S512x80 : Shape := ⟨2, ![512, 80]⟩
abbrev S1x512x64 : Shape := ⟨3, ![1, 512, 64]⟩
abbrev S80 : Shape := ⟨1, ![80]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_
  bcast_S_S1x512x64 : S_.BroadcastsInDim S1x512x64 (![] : Fin 0 → Fin S1x512x64.rank)
  reducesTo_S1x512x64_S_d0_1_2 : S1x512x64.ReducesTo [0, 1, 2] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S32x2048x512 .f32) (main_arg1 : FVec F S512x80 .f32) (main_arg2 : FVec F S1x512x64 .f32) (main_arg3 : FVec F S80 .f32) (main_arg4 : FVec F S80 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S512x80 .f32 := Host.absf main_arg1
  let main_cst_0 : FVec F S_ .f32 := constant S_ .f32 0x7F800000#32
  let main_v5 : FVec F S512x80 .f32 := broadcastInDim S512x80 ![] bcast_S_S512x80 main_cst_0
  let main_v6 : IVec S512x80 1 := cmpf .olt main_v4 main_v5
  let main_c_1 : IVec S_ 1 := constantI S_ 1 1#1
  let main_v7 : IVec S_ 1 := (fun x v => Host.reduce IntOp.andi x v reducesTo_S512x80_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_v13 main_v16
-- ==== Kernel.lean ====
abbrev S32x2048x512 : Shape := ⟨3, ![32, 2048, 512]⟩
abbrev S512x80 : Shape := ⟨2, ![512, 80]⟩
abbrev S1x512x64 : Shape := ⟨3, ![1, 512, 64]⟩
abbrev S80 : Shape := ⟨1, ![80]⟩
abbrev S1x80 : Shape := ⟨2, ![1, 80]⟩
abbrev S1x2048x512 : Shape := ⟨3, ![1, 2048, 512]⟩
abbrev S2048x512 : Shape := ⟨2, ![2048, 512]⟩
abbrev S2048x80 : Shape := ⟨2, ![2048, 80]⟩
abbrev S_ : Shape := ⟨0, ![]⟩
abbrev S32x512x64 : Shape := ⟨3, ![32, 512, 64]⟩
abbrev S2048 : Shape := ⟨1, ![2048]⟩
abbrev S2048x1 : Shape := ⟨2, ![2048, 1]⟩
abbrev S2048x64 : Shape := ⟨2, ![2048, 64]⟩
abbrev S64 : Shape := ⟨1, ![64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1 : Shape := ⟨1, ![1]⟩
abbrev S1x1 : Shape := ⟨2, ![1, 1]⟩
abbrev S32x32768 : Shape := ⟨2, ![32, 32768]⟩

abbrev nBuf : Space → Nat
  | .hbm => 19
  | .vmem => 15
  | .smem => 0
  | _ => 0

abbrev bufTy : (tb : Table) → Fin (tcTables nBuf tb) → BufTy
  | .hbm, ⟨0, _⟩ => ⟨S32x2048x512, .f32⟩
  | .hbm, ⟨1, _⟩ => ⟨S512x80, .f32⟩
  | .hbm, ⟨2, _⟩ => ⟨S1x512x64, .f32⟩
  | .hbm, ⟨3, _⟩ => ⟨S80, .f32⟩
  | .hbm, ⟨4, _⟩ => ⟨S80, .f32⟩
  | .hbm, ⟨5, _⟩ => ⟨S1x80, .f32⟩
  | .hbm, ⟨6, _⟩ => ⟨S1x80, .f32⟩
  | .hbm, ⟨7, _⟩ => ⟨S_, .f32⟩
  | .hbm, ⟨8, _⟩ => ⟨S1x80, .f32⟩
  | .hbm, ⟨9, _⟩ => ⟨S1x80, .f32⟩
  | .hbm, ⟨10, _⟩ => ⟨S_, .f32⟩
  | .hbm, ⟨11, _⟩ => ⟨S1x80, .f32⟩
  | .hbm, ⟨12, _⟩ => ⟨S1x80, .f32⟩
  | .hbm, ⟨13, _⟩ => ⟨S1x80, .f32⟩
  | .hbm, ⟨14, _⟩ => ⟨S1x80, .f32⟩
  | .hbm, ⟨15, _⟩ => ⟨S1x80, .f32⟩
  | .hbm, ⟨16, _⟩ => ⟨S1x80, .f32⟩
  | .hbm, ⟨17, _⟩ => ⟨S32x512x64, .f32⟩
  | .hbm, ⟨18, _⟩ => ⟨S32x32768, .f32⟩
  | .local _ .vmem, ⟨0, _⟩ => ⟨S1x2048x512, .f32⟩
  | .local _ .vmem, ⟨1, _⟩ => ⟨S1x2048x512, .f32⟩
  | .local _ .vmem, ⟨2, _⟩ => ⟨S512x80, .f32⟩
  | .local _ .vmem, ⟨3, _⟩ => ⟨S1x80, .f32⟩
  | .local _ .vmem, ⟨4, _⟩ => ⟨S1x80, .f32⟩
  | .local _ .vmem, ⟨5, _⟩ => ⟨S1x2048x512, .f32⟩
  | .local _ .vmem, ⟨6, _⟩ => ⟨S1x2048x512, .f32⟩
  | .local _ .vmem, ⟨7, _⟩ => ⟨S512x80, .f32⟩
  | .local _ .vmem, ⟨8, _⟩ => ⟨S1x512x64, .f32⟩
  | .local _ .vmem, ⟨9, _⟩ => ⟨S1x80, .f32⟩
  | .local _ .vmem, ⟨10, _⟩ => ⟨S1x80, .f32⟩
  | .local _ .vmem, ⟨11, _⟩ => ⟨S1x80, .f32⟩
  | .local _ .vmem, ⟨12, _⟩ => ⟨S1x80, .f32⟩
  | .local _ .vmem, ⟨13, _⟩ => ⟨S1x512x64, .f32⟩
  | .local _ .vmem, ⟨14, _⟩ => ⟨S1x512x64, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x80 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x80_S512x80_0_0 : ∀ a, (![0, 0] : Fin 2 → Nat) a + S512x80.size a ≤ S512x80.size a
  h_S512x80 : 0 < S512x80.numel
  reduces_S2048x80_S80 : S2048x80.Reduces [0] S80
  shapeCasts_S80_S1x80 : S80.ShapeCasts S1x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  bcast_S_S1x80 : S_.BroadcastsInDim S1x80 (![] : Fin 0 → Fin S1x80.rank)
  broadcasts_S1x80_S2048x80 : S1x80.Broadcasts S2048x80
  reduces_S2048x80_S2048 : S2048x80.Reduces [1] S2048
  shapeCasts_S2048_S2048x1 : S2048.ShapeCasts S2048x1
  broadcasts_S2048x1_S2048x80 : S2048x1.Broadcasts S2048x80
  slices_S2048x80_o0_0_S2048x64 : S2048x80.Slices ![0, 0] S2048x64
  reduces_S2048x64_S64 : S2048x64.Reduces [0] S64
  shapeCasts_S64_S1x64 : S64.ShapeCasts S1x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  broadcasts_S1x64_S512x64 : S1x64.Broadcasts S512x64
  reduces_S512x64_S64 : S512x64.Reduces [0] S64
  reduces_S512x64_S512 : S512x64.Reduces [1] S512
  shapeCasts_S512_S512x1 : S512.ShapeCasts S512x1
  reduces_S512x1_S1 : S512x1.Reduces [0] S1
  shapeCasts_S1_S1x1 : S1.ShapeCasts S1x1
  broadcasts_S1x1_S512x64 : S1x1.Broadcasts S512x64
  shapeCasts_S512x64_S1x512x64 : S512x64.ShapeCasts S1x512x64
  shapeCasts_S32x512x64_S32x32768 : S32x512x64.ShapeCasts S32x32768
  dot_S2048x512_S512x80_S2048x80_1_0_0_1_n_n_wf : DotDims.WF S2048x512 S512x80 S2048x80 [1] [0] [0] [1] [] []
  dot_S2048x512_S2048x64_S512x64_0_0_1_1_n_n_wf : DotDims.WF S2048x512 S2048x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x80.size a ≤ S512x80.size a
  hwx0_1 : ∀ i : grid0.Coords, EltTy.bits .f32 = 32 ∨ (Rect.block (s := S512x80) S512x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x80.size a ≤ S1x80.size a
  hwx0_3 : ∀ i : grid0.Coords, EltTy.bits .f32 = 32 ∨ (Rect.block (s := S1x80) S1x80.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S32x2048x512.size a
  hwx1_0 : ∀ i : grid1.Coords, EltTy.bits .f32 = 32 ∨ (Rect.block (s := S32x2048x512) S1x2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x80.size a ≤ S512x80.size a
  hwx1_1 : ∀ i : grid1.Coords, EltTy.bits .f32 = 32 ∨ (Rect.block (s := S512x80) S512x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S1x512x64.size a
  hwx1_2 : ∀ i : grid1.Coords, EltTy.bits .f32 = 32 ∨ (Rect.block (s := S1x512x64) S1x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x80.size a ≤ S1x80.size a
  hwx1_4 : ∀ i : grid1.Coords, EltTy.bits .f32 = 32 ∨ (Rect.block (s := S1x80) S1x80.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x80.size a ≤ S1x80.size a
  hwx1_5 : ∀ i : grid1.Coords, EltTy.bits .f32 = 32 ∨ (Rect.block (s := S1x80) S1x80.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x80.size a ≤ S1x80.size a
  hwx1_6 : ∀ i : grid1.Coords, EltTy.bits .f32 = 32 ∨ (Rect.block (s := S1x80) S1x80.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x64.size a ≤ S32x512x64.size a
  hwx1_7 : ∀ i : grid1.Coords, EltTy.bits .f32 = 32 ∨ (Rect.block (s := S32x512x64) S1x512x64.size (cc1_transform_7 i) (hinb1_7 i)).WholeWords (EltTy.packing .f32)

variable [Facts₀]

def dot_S2048x512_S512x80_S2048x80_1_0_0_1_n_n : DotDims S2048x512 S512x80 S2048x80 where
  lhsContracting := [1]
  rhsContracting := [0]
  lhsNonContracting := [0]
  rhsNonContracting := [1]
  lhsBatch := []
  rhsBatch := []
  wf := dot_S2048x512_S512x80_S2048x80_1_0_0_1_n_n_wf
def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x80.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x80.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x80.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x80.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x2048x512 : Shape := ⟨3, ![32, 2048, 512]⟩
abbrev S512x80 : Shape := ⟨2, ![512, 80]⟩
abbrev S1x512x64 : Shape := ⟨3, ![1, 512, 64]⟩
abbrev S80 : Shape := ⟨1, ![80]⟩
abbrev S65536x512 : Shape := ⟨2, ![65536, 512]⟩
abbrev S65536x80 : Shape := ⟨2, ![65536, 80]⟩
abbrev S_ : Shape := ⟨0, ![]⟩
abbrev S1x80 : Shape := ⟨2, ![1, 80]⟩
abbrev S65536 : Shape := ⟨1, ![65536]⟩
abbrev S65536x1 : Shape := ⟨2, ![65536, 1]⟩
abbrev S65536x64 : Shape := ⟨2, ![65536, 64]⟩
abbrev S32x2048x64 : Shape := ⟨3, ![32, 2048, 64]⟩
abbrev S32x64 : Shape := ⟨2, ![32, 64]⟩
abbrev S32x1x64 : Shape := ⟨3, ![32, 1, 64]⟩
abbrev S32x512x64 : Shape := ⟨3, ![32, 512, 64]⟩
abbrev S32x32768 : Shape := ⟨2, ![32, 32768]⟩
abbrev S32 : Shape := ⟨1, ![32]⟩
abbrev S32x1 : Shape := ⟨2, ![32, 1]⟩

abbrev nBuf : Space → Nat
  | .hbm => 96
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S512x80, .f32⟩
  | .hbm, ⟨2, _⟩ => ⟨S1x512x64, .f32⟩
  | .hbm, ⟨3, _⟩ => ⟨S80, .f32⟩
  | .hbm, ⟨4, _⟩ => ⟨S80, .f32⟩
  | .hbm, ⟨5, _⟩ => ⟨S65536x512, .f32⟩
  | .hbm, ⟨6, _⟩ => ⟨S65536x80, .f32⟩
  | .hbm, ⟨7, _⟩ => ⟨S_, .f32⟩
  | .hbm, ⟨8, _⟩ => ⟨S80, .f32⟩
  | .hbm, ⟨9, _⟩ => ⟨S_, .f32⟩
  | .hbm, ⟨10, _⟩ => ⟨S80, .f32⟩
  | .hbm, ⟨11, _⟩ => ⟨S80, .f32⟩
  | .hbm, ⟨12, _⟩ => ⟨S_, .i32⟩
  | .hbm, ⟨13, _⟩ => ⟨S_, .f32⟩
  | .hbm, ⟨14, _⟩ => ⟨S80, .f32⟩
  | .hbm, ⟨15, _⟩ => ⟨S1x80, .f32⟩
  | .hbm, ⟨16, _⟩ => ⟨S_, .f32⟩
  | .hbm, ⟨17, _⟩ => ⟨S1x80, .f32⟩
  | .hbm, ⟨18, _⟩ => ⟨S1x80, .f32⟩
  | .hbm, ⟨19, _⟩ => ⟨S65536x80, .f32⟩
  | .hbm, ⟨20, _⟩ => ⟨S65536x80, .f32⟩
  | .hbm, ⟨21, _⟩ => ⟨S65536x80, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S80, .f32⟩
  | .hbm, ⟨27, _⟩ => ⟨S80, .f32⟩
  | .hbm, ⟨28, _⟩ => ⟨S80, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S80, .f32⟩
  | .hbm, ⟨34, _⟩ => ⟨S80, .f32⟩
  | .hbm, ⟨35, _⟩ => ⟨S1x80, .f32⟩
  | .hbm, ⟨36, _⟩ => ⟨S65536x80, .f32⟩
  | .hbm, ⟨37, _⟩ => ⟨S65536x80, .f32⟩
  | .hbm, ⟨38, _⟩ => ⟨S_, .f32⟩
  | .hbm, ⟨39, _⟩ => ⟨S80, .f32⟩
  | .hbm, ⟨40, _⟩ => ⟨S80, .f32⟩
  | .hbm, ⟨41, _⟩ => ⟨S80, .f32⟩
  | .hbm, ⟨42, _⟩ => ⟨S1x80, .f32⟩
  | .hbm, ⟨43, _⟩ => ⟨S65536x80, .f32⟩
  | .hbm, ⟨44, _⟩ => ⟨S65536x80, .f32⟩
  | .hbm, ⟨45, _⟩ => ⟨S1x80, .f32⟩
  | .hbm, ⟨46, _⟩ => ⟨S65536x80, .f32⟩
  | .hbm, ⟨47, _⟩ => ⟨S65536x80, .f32⟩
  | .hbm, ⟨48, _⟩ => ⟨S1x80, .f32⟩
  | .hbm, ⟨49, _⟩ => ⟨S65536x80, .f32⟩
  | .hbm, ⟨50, _⟩ => ⟨S65536x80, .f32⟩
  | .hbm, ⟨51, _⟩ => ⟨S_, .f32⟩
  | .hbm, ⟨52, _⟩ => ⟨S65536, .f32⟩
  | .hbm, ⟨53, _⟩ => ⟨S_, .f32⟩
  | .hbm, ⟨54, _⟩ => ⟨S65536, .f32⟩
  | .hbm, ⟨55, _⟩ => ⟨S65536, .f32⟩
  | .hbm, ⟨56, _⟩ => ⟨S65536x1, .f32⟩
  | .hbm, ⟨57, _⟩ => ⟨S65536x80, .f32⟩
  | .hbm, ⟨58, _⟩ => ⟨S65536x80, .f32⟩
  | .hbm, ⟨59, _⟩ => ⟨S65536x80, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S65536x80, .f32⟩
  | .hbm, ⟨64, _⟩ => ⟨S65536x80, .f32⟩
  | .hbm, ⟨65, _⟩ => ⟨S65536x64, .f32⟩
  | .hbm, ⟨66, _⟩ => ⟨S32x2048x64, .f32⟩
  | .hbm, ⟨67, _⟩ => ⟨S_, .f32⟩
  | .hbm, ⟨68, _⟩ => ⟨S32x64, .f32⟩
  | .hbm, ⟨69, _⟩ => ⟨S32x1x64, .f32⟩
  | .hbm, ⟨70, _⟩ => ⟨S32x512x64, .f32⟩
  | .hbm, ⟨71, _⟩ => ⟨S32x512x64, .f32⟩
  | .hbm, ⟨72, _⟩ => ⟨S32x512x64, .f32⟩
  | .hbm, ⟨73, _⟩ => ⟨S32x512x64, .f32⟩
  | .hbm, ⟨74, _⟩ => ⟨S32x512x64, .f32⟩
  | .hbm, ⟨75, _⟩ => ⟨S32x512x64, .f32⟩
  | .hbm, ⟨76, _⟩ => ⟨S_, .f32⟩
  | .hbm, ⟨77, _⟩ => ⟨S32x64, .f32⟩
  | .hbm, ⟨78, _⟩ => ⟨S32x1x64, .f32⟩
  | .hbm, ⟨79, _⟩ => ⟨S32x1x64, .f32⟩
  | .hbm, ⟨80, _⟩ => ⟨S_, .f32⟩
  | .hbm, ⟨81, _⟩ => ⟨S32x1x64, .f32⟩
  | .hbm, ⟨82, _⟩ => ⟨S32x1x64, .f32⟩
  | .hbm, ⟨83, _⟩ => ⟨S32x512x64, .f32⟩
  | .hbm, ⟨84, _⟩ => ⟨S32x512x64, .f32⟩
  | .hbm, ⟨85, _⟩ => ⟨S32x32768, .f32⟩
  | .hbm, ⟨86, _⟩ => ⟨S32x32768, .f32⟩
  | .hbm, ⟨87, _⟩ => ⟨S_, .f32⟩
  | .hbm, ⟨88, _⟩ => ⟨S32, .f32⟩
  | .hbm, ⟨89, _⟩ => ⟨S32x1, .f32⟩
  | .hbm, ⟨90, _⟩ => ⟨S32x1, .f32⟩
  | .hbm, ⟨91, _⟩ => ⟨S_, .f32⟩
  | .hbm, ⟨92, _⟩ => ⟨S32x1, .f32⟩
  | .hbm, ⟨93, _⟩ => ⟨S32x1, .f32⟩
  | .hbm, ⟨94, _⟩ => ⟨S32x32768, .f32⟩
  | .hbm, ⟨95, _⟩ => ⟨S32x32768, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call1_v0 : Ref sig .tc := ⟨.hbm, 75, rfl⟩
abbrev main_call1_cst : Ref sig .tc := ⟨.hbm, 76, rfl⟩
abbrev main_call1_v1 : Ref sig .tc := ⟨.hbm, 77, rfl⟩
abbrev main_call1_v2 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_call2_v2 : Ref sig .tc := ⟨.hbm, 89, rfl⟩
abbrev main_v47 : Ref sig .tc := ⟨.hbm, 90, rfl⟩
abbrev main_cst_7 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]

class Facts₀ : Prop where
  shapeCasts_S32x2048x512_S65536x512 : S32x2048x512.ShapeCasts S65536x512
  reducesTo_S65536x80_S80_d0 : S65536x80.ReducesTo [0] S80
  h_S_ : 0 < S_.numel
  bcast_S_S80 : S_.BroadcastsInDim S80 (![] : Fin 0 → Fin S80.rank)
  bcast_S80_S1x80_1 : S80.BroadcastsInDim S1x80 (![1] : Fin 1 → Fin S1x80.rank)
  bcast_S_S1x80 : S_.BroadcastsInDim S1x80 (![] : Fin 0 → Fin S1x80.rank)
  bcast_S1x80_S65536x80_0_1 : S1x80.BroadcastsInDim S65536x80 (![0, 1] : Fin 2 → Fin S65536x80.rank)
  reducesTo_S65536x80_S65536_d1 : S65536x80.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x80_0_1 : S65536x1.BroadcastsInDim S65536x80 (![0, 1] : Fin 2 → Fin S65536x80.rank)
  slices_S65536x80_S65536x64_0_0 : S65536x80.Slices ![0, 0] S65536x64
  shapeCasts_S65536x64_S32x2048x64 : S65536x64.ShapeCasts S32x2048x64
  reducesTo_S32x2048x64_S32x64_d1 : S32x2048x64.ReducesTo [1] S32x64
  bcast_S32x64_S32x1x64_0_2 : S32x64.BroadcastsInDim S32x1x64 (![0, 2] : Fin 2 → Fin S32x1x64.rank)
  bcast_S32x1x64_S32x512x64_0_1_2 : S32x1x64.BroadcastsInDim S32x512x64 (![0, 1, 2] : Fin 3 → Fin S32x512x64.rank)
  bcast_S1x512x64_S32x512x64_0_1_2 : S1x512x64.BroadcastsInDim S32x512x64 (![0, 1, 2] : Fin 3 → Fin S32x512x64.rank)
  reducesTo_S32x512x64_S32x64_d1 : S32x512x64.ReducesTo [1] S32x64
  bcast_S_S32x1x64 : S_.BroadcastsInDim S32x1x64 (![] : Fin 0 → Fin S32x1x64.rank)
  shapeCasts_S32x512x64_S32x32768 : S32x512x64.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S65536x512_S512x80_S65536x80_1_0_0_1_n_n_wf : DotDims.WF S65536x512 S512x80 S65536x80 [1] [0] [0] [1] [] []
  dot_S32x2048x512_S32x2048x64_S32x512x64_1_1_2_2_0_0_wf : DotDims.WF S32x2048x512 S32x2048x64 S32x512x64 [1] [1] [2] [2] [0] [0]

variable [Facts₀]

def dot_S65536x512_S512x80_S65536x80_1_0_0_1_n_n : DotDims S65536x512 S512x80 S65536x80 where
  lhsContracting := [1]
  rhsContracting := [0]
  lhsNonContracting := [0]
  rhsNonContracting := [1]
  lhsBatch := []
  rhsBatch := []
  wf := dot_S65536x512_S512x80_S65536x80_1_0_0_1_n_n_wf
def dot_S32x2048x512_S32x2048x64_S32x512x64_1_1_2_2_0_0 : DotDims S32x2048x512 S32x2048x64 S32x512x64 where
  lhsContracting := [1]
  rhsContracting := [1]
  lhsNonContracting := [2]
  rhsNonContracting := [2]
  lhsBatch := [0]
  rhsBatch := [0]
  wf := dot_S32x2048x512_S32x2048x64_S32x512x64_1_1_2_2_0_0_wf

class Facts : Prop extends Facts₀ where

variable [Facts]
-- ==== Proof.Spec.lean ====
/-
  The mathematics both programs compute, over plain functions of coordinates on the extended reals.

  A table of logits `a b n k` (batch `b`, row `n`, cluster `k`; 32 × 2048 × 80) is normalised cluster by cluster with a
  mean `μ k` and a variance `v k`, scaled and shifted by `γ`, `β`, turned into probabilities by a softmax over the 80
  clusters, and the first 64 clusters' probabilities aggregate the features `x b n d`:
      vlad b d k = ∑ₙ x b n d · p b n k − (∑ₙ p b n k) · c2 d k.
  Each column `(b, ·, k)` is divided by its Euclidean norm (at least `ε`), then each batch `(b, ·, ·)` by its own.

  The two programs differ only in how `μ` and `v` are obtained from the 65536 rows of logits: one from the sum and the
  sum of squares (`meanK`, `varK`: E[a²] − E[a]²), the other from the centred squares (`meanR`, `varR`: E[(a − E[a])²]).
  For finite logits these are the same numbers (`stats_eq`).
-/
import Idealize.ShloMosaic.PureOps.Ideal.Laws
import Idealize.ShloMosaic.Lib.ValueIdx

noncomputable section

namespace Cert.Vlad

open Idealize.ShloMosaic Idealize.ShloMosaic.ValueIdx

/-- The row count 65536, the two epsilons and −∞, each as the value its f32 word denotes. -/
def rows : EReal := Ideal.ofBits .f32 0x47800000#32
def epsBN : EReal := Ideal.ofBits .f32 0x3727C5AC#32
def epsL2 : EReal := Ideal.ofBits .f32 0x2B8CBCCC#32
def negInf : EReal := Ideal.ofBits .f32 0xFF800000#32

/-- The logits: features times cluster centres. -/
def assn (x : Fin 32 → Fin 2048 → Fin 512 → EReal) (cl : Fin 512 → Fin 80 → EReal) (b : Fin 32) (n : Fin 2048) (k : Fin 80) : EReal :=
  ∑ d : Fin 512, x b n d * cl d k

section Stats

variable (a : Fin 32 → Fin 2048 → Fin 80 → EReal)

/-- Column sums and sums of squares over every batch and row. -/
def sum1 (k : Fin 80) : EReal := ∑ b : Fin 32, ∑ n : Fin 2048, a b n k
def sum2 (k : Fin 80) : EReal := ∑ b : Fin 32, ∑ n : Fin 2048, a b n k * a b n k

/-- Mean and variance as E[a] and E[a²] − E[a]². -/
def meanK (k : Fin 80) : EReal := Ideal.div (sum1 a k) rows
def varK (k : Fin 80) : EReal := Ideal.div (sum2 a k) rows - meanK a k * meanK a k

/-- Row `i` of the 65536 flattened rows is row `i % 2048` of batch `i / 2048`. -/
def flatRow (i : Fin 65536) (k : Fin 80) : EReal :=
  a ⟨i.val / 2048, by have := i.isLt; omega⟩ ⟨i.val % 2048, Nat.mod_lt _ (by decide)⟩ k

/-- Mean and variance as E[a] and E[(a − E[a])²], over the flattened rows. -/
def meanR (k : Fin 80) : EReal := Ideal.div (∑ i : Fin 65536, flatRow a i k) rows
def varR (k : Fin 80) : EReal :=
  Ideal.div (∑ i : Fin 65536, (flatRow a i k - meanR a k) * (flatRow a i k - meanR a k)) rows

end Stats

section Prob

variable (a : Fin 32 → Fin 2048 → Fin 80 → EReal) (μ v γ β : Fin 80 → EReal)

/-- The normalised, scaled and shifted logit. -/
def logit (b : Fin 32) (n : Fin 2048) (k : Fin 80) : EReal :=
  (a b n k - μ k) * Ideal.rsqrt (v k + epsBN) * γ k + β k

/-- The row's largest logit (the fold starts at −∞, and is joined with −∞ once more). -/
def logitMax (b : Fin 32) (n : Fin 2048) : EReal :=
  max negInf ((Finset.univ : Finset (Fin 80)).fold max negInf (fun k => logit a μ v γ β b n k))

def expo (b : Fin 32) (n : Fin 2048) (k : Fin 80) : EReal := Ideal.exp (logit a μ v γ β b n k - logitMax a μ v γ β b n)

/-- The softmax over the 80 clusters. -/
def prob (b : Fin 32) (n : Fin 2048) (k : Fin 80) : EReal :=
  Ideal.div (expo a μ v γ β b n k) (∑ k' : Fin 80, expo a μ v γ β b n k')

/-- Its first 64 clusters. -/
def probK (b : Fin 32) (n : Fin 2048) (k : Fin 64) : EReal := prob a μ v γ β b n ⟨k.val, by have := k.isLt; omega⟩

end Prob

section Agg

variable (p : Fin 32 → Fin 2048 → Fin 64 → EReal) (x : Fin 32 → Fin 2048 → Fin 512 → EReal) (c2 : Fin 512 → Fin 64 → EReal)

def aSum (b : Fin 32) (k : Fin 64) : EReal := ∑ n : Fin 2048, p b n k

/-- The residual aggregate. -/
def vlad (b : Fin 32) (d : Fin 512) (k : Fin 64) : EReal :=
  (∑ n : Fin 2048, x b n d * p b n k) - aSum p b k * c2 d k

/-- A column's Euclidean norm over the 512 features, at least ε. -/
def colNorm (b : Fin 32) (k : Fin 64) : EReal :=
  max (Ideal.sqrt (∑ d : Fin 512, vlad p x c2 b d k * vlad p x c2 b d k)) epsL2

def vladIntra (b : Fin 32) (d : Fin 512) (k : Fin 64) : EReal := Ideal.div (vlad p x c2 b d k) (colNorm p x c2 b k)

/-- A batch's Euclidean norm over all 512 × 64 entries, at least ε. -/
def allNorm (b : Fin 32) : EReal :=
  max (Ideal.sqrt (∑ d : Fin 512, ∑ k : Fin 64, vladIntra p x c2 b d k * vladIntra p x c2 b d k)) epsL2

def vladOut (b : Fin 32) (d : Fin 512) (k : Fin 64) : EReal := Ideal.div (vladIntra p x c2 b d k) (allNorm p x c2 b)

end Agg

/-- A 32 × 512 × 64 table laid out as 32 rows of 32768: entry `j` of a row is `(j / 64, j % 64)`. -/
def flat (o : Fin 32 → Fin 512 → Fin 64 → EReal) : (⟨2, ![32, 32768]⟩ : Shape).Idx → EReal := fun i =>
  o ⟨(i 0).val, idx2_lt0 i⟩ ⟨(i 1).val / 64, by have := idx2_lt1 i; omega⟩ ⟨(i 1).val % 64, Nat.mod_lt _ (by decide)⟩

/-- The row count's word denotes the real 65536. -/
theorem rows_eq : rows = ((65536 : ℝ) : EReal) := by
  simp [rows, Ideal.ofBits, Ideal.ieee, -EReal.coe_mul]; norm_num

/-- Dividing by the row count is multiplying by 1/65536. -/
theorem div_rows (t : EReal) : Ideal.div t rows = t * ((1 / 65536 : ℝ) : EReal) := by
  rw [rows_eq]; exact Ideal.div_coe (by norm_num) t

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The 65536 flattened rows enumerate every (batch, row) pair exactly once. -/
theorem sum_flat {M : Type*} [AddCommMonoid M] (g : Fin 32 → Fin 2048 → M) :
    (∑ i : Fin 65536, g ⟨i.val / 2048, by have := i.isLt; omega⟩ ⟨i.val % 2048, Nat.mod_lt _ (by decide)⟩)
      = ∑ b : Fin 32, ∑ n : Fin 2048, g b n := by
  rw [← Fintype.sum_prod_type']
  symm
  refine Fintype.sum_equiv (finProdFinEquiv (m := 32) (n := 2048)) _ _ ?_
  rintro ⟨b, n⟩
  have h1 : (n.val + 2048 * b.val) / 2048 = b.val := by have := n.isLt; omega
  have h2 : (n.val + 2048 * b.val) % 2048 = n.val := by have := n.isLt; omega
  simp only [finProdFinEquiv, Equiv.coe_fn_mk]
  congr 1 <;> exact Fin.ext (by simp [h1, h2])

/-- Over the reals, with `c` the reciprocal of the number of terms: E[(f − E f)²] = E[f²] − (E f)². -/
theorem real_var {ι : Type*} [Fintype ι] (f : ι → ℝ) (c : ℝ) (hc : (Fintype.card ι : ℝ) * c = 1) :
    (∑ i, (f i - (∑ j, f j) * c) * (f i - (∑ j, f j) * c)) * c
      = (∑ i, f i * f i) * c - (∑ j, f j) * c * ((∑ j, f j) * c) := by
  set S := ∑ j, f j with hS
  have h : ∀ i, (f i - S * c) * (f i - S * c) = f i * f i - 2 * (S * c) * f i + S * c * (S * c) :=
    fun i => by ring
  simp_rw [h]
  rw [Finset.sum_add_distrib, Finset.sum_sub_distrib, ← Finset.mul_sum, Finset.sum_const, Finset.card_univ,
    nsmul_eq_mul, ← hS]
  linear_combination (S * c * (S * c)) * hc

/-- Finite features and centres give finite logits. -/
theorem assn_finite (x : Fin 32 → Fin 2048 → Fin 512 → EReal) (cl : Fin 512 → Fin 80 → EReal)
    (hx : ∀ b n d, ∃ r : ℝ, x b n d = (r : EReal)) (hc : ∀ d k, ∃ r : ℝ, cl d k = (r : EReal)) :
    ∀ b n k, ∃ r : ℝ, assn x cl b n k = (r : EReal) := by
  choose rx hrx using hx
  choose rc hrc using hc
  intro b n k
  refine ⟨∑ d : Fin 512, rx b n d * rc d k, ?_⟩
  simp only [assn, hrx, hrc]
  rw [coe_sum]
  simp only [EReal.coe_mul]

/-- For finite logits the two ways of taking mean and variance agree: E[(a − E a)²] = E[a²] − (E a)². -/
theorem stats_eq (a : Fin 32 → Fin 2048 → Fin 80 → EReal) (ha : ∀ b n k, ∃ r : ℝ, a b n k = (r : EReal)) :
    meanR a = meanK a ∧ varR a = varK a := by
  choose r hr using ha
  have hmean : meanR a = meanK a := by
    funext k
    simp only [meanR, meanK, sum1]
    exact congrArg (fun t => Ideal.div t rows) (sum_flat (fun b n => a b n k))
  refine ⟨hmean, ?_⟩
  funext k
  let f : Fin 32 × Fin 2048 → ℝ := fun p => r p.1 p.2 k
  have hc : (Fintype.card (Fin 32 × Fin 2048) : ℝ) * (1 / 65536) = 1 := by
    simp [Fintype.card_prod]
  have key := real_var f (1 / 65536) hc
  have hm : meanK a k = (((∑ p, f p) * (1 / 65536) : ℝ) : EReal) := by
    simp only [meanK, sum1, div_rows, hr]
    rw [← Fintype.sum_prod_type' (fun b n => ((r b n k : ℝ) : EReal)), ← coe_sum, ← EReal.coe_mul]
  have h2 : sum2 a k = ((∑ p, f p * f p : ℝ) : EReal) := by
    simp only [sum2, hr, ← EReal.coe_mul]
    rw [← Fintype.sum_prod_type' (fun b n => ((r b n k * r b n k : ℝ) : EReal)), ← coe_sum]
  have h3 : (∑ i : Fin 65536, (flatRow a i k - meanR a k) * (flatRow a i k - meanR a k))
      = ((∑ p, (f p - (∑ q, f q) * (1 / 65536)) * (f p - (∑ q, f q) * (1 / 65536)) : ℝ) : EReal) := by
    rw [hmean, hm]
    refine (sum_flat (fun b n => (a b n k - _) * (a b n k - _))).trans ?_
    simp only [hr, ← EReal.coe_sub, ← EReal.coe_mul]
    rw [← Fintype.sum_prod_type' (fun b n => (((r b n k - (∑ q, f q) * (1 / 65536)) * (r b n k - (∑ q, f q) * (1 / 65536)) : ℝ) : EReal)), ← coe_sum]
  simp only [varR, varK]
  rw [h3, h2, hm, div_rows, div_rows, ← EReal.coe_mul, ← EReal.coe_mul, ← EReal.coe_mul, ← EReal.coe_sub, key]

end Cert.Vlad

end
-- ==== Proof.Args.lean ====
/-
  Arrays of small rank read as functions of their coordinates.
-/
import Idealize.ShloMosaic.Lib.ValueIdx

namespace Cert.Vlad

open Idealize.ShloMosaic Idealize.ShloMosaic.ValueIdx

variable {α : Type} {n0 n1 n2 : Nat}

/-- A rank-3 array at `(a, b, c)`. -/
def fn3 (A : (⟨3, ![n0, n1, n2]⟩ : Shape).Idx → α) : Fin n0 → Fin n1 → Fin n2 → α := fun a b c => A (ix3 a b c)
/-- A rank-2 array at `(a, b)`. -/
def fn2 (A : (⟨2, ![n0, n1]⟩ : Shape).Idx → α) : Fin n0 → Fin n1 → α := fun a b => A (ix2 a b)
/-- A rank-1 array at `a`. -/
def fn1 (A : (⟨1, ![n0]⟩ : Shape).Idx → α) : Fin n0 → α := fun a => A (ix1 a)
/-- The one row of a `1 × n` array. -/
def row0 (A : (⟨2, ![1, n1]⟩ : Shape).Idx → α) : Fin n1 → α := fun b => A (ix2 0 b)
/-- The one slab of a `1 × n × m` array. -/
def slab0 (A : (⟨3, ![1, n1, n2]⟩ : Shape).Idx → α) : Fin n1 → Fin n2 → α := fun b c => A (ix3 0 b c)

end Cert.Vlad
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Region0.lean ====
/-
  Region 0: what the two accumulated arrays hold when the region is left.

  The region has 32 grid points, one per batch block. Point `t` multiplies block `t` of the features (2048 × 512) by the
  centres (512 × 80) into the block's logits, and adds their column sums, and the column sums of their squares, into two
  `1 × 80` accumulators that stay in place from point to point; the first point stores zeros in both before it adds.
  Only the last point writes the accumulators back. So the two arrays end holding `((0 + s₀) + s₁) + … + s₃₁` with
  `sₜ k = ∑ₙ Lₜ n k` (and the same with squares), which over the extended reals is the double sum over every batch
  and row of the logits (`sum1`) and of their squares (`sum2`).

  The parts: what each of the body's two cases leaves in each accumulator, as one of the body's payloads; the payloads
  read at an index; the blocks the points read, as entries of the two arrays; the running sums, by induction on the
  point; the one write-back.
-/
import proofs.«143529_j19069654794906_1_alg».proof.Proof.Gen.KernelIdeal.Frame
import proofs.«143529_j19069654794906_1_alg».proof.Proof.Spec
import proofs.«143529_j19069654794906_1_alg».proof.Proof.Args
import proofs.«143529_j19069654794906_1_alg».proof.Proof.LibRowwise
import Idealize.ShloMosaic.Lib.Pipeline.Value
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Vlad

/-! ## What each case of the body leaves in the two accumulators -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point adds the block's column sums to what the first accumulator held. -/
theorem out_B_2 (c : Dev nD) (i : grid0.Coords) (a1 : Memref sig .tc .vmem S1x2048x512 .f32) (h1 : a1.IsWhole)
    (a2 : Memref sig .tc .vmem S512x80 .f32) (h2 : a2.IsWhole) (a3 : Memref sig .tc .vmem S1x80 .f32) (h3 : a3.IsWhole)
    (a4 : Memref sig .tc .vmem S1x80 .f32) (h4 : a4.IsWhole) (hc : ¬cond0_0 i)
    (x0 : Vec F S1x2048x512 .f32) (x1 : Vec F S512x80 .f32) (xo2 xo3 : Vec F S1x80 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, View.ld_unit_zero (S := S1x2048x512) hz3,
    View.ld_unit_zero (S := S512x80) hz2, View.ld_unit_zero (S := S1x80) hz2]

/-- A later point adds the block's column sums of squares to what the second accumulator held. -/
theorem out_B_3 (c : Dev nD) (i : grid0.Coords) (a1 : Memref sig .tc .vmem S1x2048x512 .f32) (h1 : a1.IsWhole)
    (a2 : Memref sig .tc .vmem S512x80 .f32) (h2 : a2.IsWhole) (a3 : Memref sig .tc .vmem S1x80 .f32) (h3 : a3.IsWhole)
    (a4 : Memref sig .tc .vmem S1x80 .f32) (h4 : a4.IsWhole) (hc : ¬cond0_0 i)
    (x0 : Vec F S1x2048x512 .f32) (x1 : Vec F S512x80 .f32) (xo2 xo3 : Vec F S1x80 .f32) :
    out0_B_3 c i a1 h1 a2 h2 a3 h3 a4 h4 hc x0 x1 xo2 xo3 = k0_pay5 x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h4.read_unread, View.ld_unit_zero (S := S1x2048x512) hz3,
    View.ld_unit_zero (S := S512x80) hz2, View.ld_unit_zero (S := S1x80) hz2]

/-- The first point stores zeros in the first accumulator, then adds the block's column sums to them. -/
theorem out_A_2 (c : Dev nD) (i : grid0.Coords) (a1 : Memref sig .tc .vmem S1x2048x512 .f32) (h1 : a1.IsWhole)
    (a2 : Memref sig .tc .vmem S512x80 .f32) (h2 : a2.IsWhole) (a3 : Memref sig .tc .vmem S1x80 .f32) (h3 : a3.IsWhole)
    (a4 : Memref sig .tc .vmem S1x80 .f32) (h4 : a4.IsWhole) (hc : cond0_0 i)
    (x0 : Vec F S1x2048x512 .f32) (x1 : Vec F S512x80 .f32) :
    out0_A_2 c i a1 h1 a2 h2 a3 h3 a4 h4 hc x0 x1 = k0_pay4 x0 x1 (k0_pay2 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x80) hz2]
  simp only [View.readAt_eq_ld, h1.read_unread, h2.read_unread, View.ld_unit_zero (S := S1x2048x512) hz3,
    View.ld_unit_zero (S := S512x80) hz2, View.readCov_unit_zero (S := S1x80) _ hz2]

/-- The first point stores zeros in the second accumulator, then adds the block's column sums of squares to them. -/
theorem out_A_3 (c : Dev nD) (i : grid0.Coords) (a1 : Memref sig .tc .vmem S1x2048x512 .f32) (h1 : a1.IsWhole)
    (a2 : Memref sig .tc .vmem S512x80 .f32) (h2 : a2.IsWhole) (a3 : Memref sig .tc .vmem S1x80 .f32) (h3 : a3.IsWhole)
    (a4 : Memref sig .tc .vmem S1x80 .f32) (h4 : a4.IsWhole) (hc : cond0_0 i)
    (x0 : Vec F S1x2048x512 .f32) (x1 : Vec F S512x80 .f32) :
    out0_A_3 c i a1 h1 a2 h2 a3 h3 a4 h4 hc x0 x1 = k0_pay5 x0 x1 (k0_pay3 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x80) hz2]
  simp only [View.readAt_eq_ld, h1.read_unread, h2.read_unread, View.ld_unit_zero (S := S1x2048x512) hz3,
    View.ld_unit_zero (S := S512x80) hz2, View.readCov_unit_zero (S := S1x80) _ hz2]

end Pieces

/-! ## The payloads at the extended reals, read at an index -/

section Arith

/-- Dropping the leading unit axis of a `1 × 2048 × 512` block reads `(n, d)` at `(0, n, d)`. -/
theorem dropUnit_apply (x0 : FVec Ideal ⟨3, ![1, 2048, 512]⟩ .f32) (h : (⟨3, ![1, 2048, 512]⟩ : Shape).ShapeCasts ⟨2, ![2048, 512]⟩)
    (n : Fin 2048) (d : Fin 512) : shapeCast ⟨2, ![2048, 512]⟩ x0 h (ix2 n d) = x0 (ix3 0 n d) := by
  refine shapeCast_apply x0 h (ix2 n d) (ix3 0 n d) ?_
  rw [Shape.rowMajor_val_three, Shape.rowMajor_val_two]
  show (0 * 2048 + n.val) * 512 + d.val = n.val * 512 + d.val
  omega

/-- A length-`B` vector cast to one row reads, at `(0, q)`, the vector at `q`. -/
theorem row_apply {B : Nat} {α : Type} (v : (⟨1, ![B]⟩ : Shape).Idx → α) (h : (⟨1, ![B]⟩ : Shape).ShapeCasts ⟨2, ![1, B]⟩) (q : Fin B) :
    shapeCast ⟨2, ![1, B]⟩ v h (ix2 0 q) = v (ix1 q) := by
  refine shapeCast_apply v h (ix2 0 q) (ix1 q) ?_
  rw [Shape.rowMajor_val_one, Shape.rowMajor_val_two]
  show q.val = 0 * B + q.val
  omega

/-- Column `q` with row `n` put back is `(n, q)`. -/
theorem lift_col {A B : Nat} (h : (⟨2, ![A, B]⟩ : Shape).Reduces [0] ⟨1, ![B]⟩) (q : Fin B) (n : Fin A) :
    h.lift (ix1 q) n = ix2 n q :=
  funext fun a => Fin.ext (by match a with | ⟨0, _⟩ => rfl | ⟨1, _⟩ => rfl)

/-- A sum over the rows (axis 0) of an `A × B` vector, at column `q`. -/
theorem colSum_apply {A B : Nat} {φ : FTy} (src : FVec Ideal ⟨2, ![A, B]⟩ φ) (acc : BitVec φ.bits)
    (h : (⟨2, ![A, B]⟩ : Shape).Reduces [0] ⟨1, ![B]⟩) (hφ : FKind.Formats φ) (hacc : acc = FKind.add.neutral φ hφ) (q : Fin B) :
    multiReduction .add [0] ⟨1, ![B]⟩ src acc h hφ hacc (ix1 q) = ∑ n : Fin A, src (ix2 n q) := by
  rw [Ideal.multiReduction_add_single]
  exact Finset.sum_congr rfl fun n _ => congrArg src (lift_col h q n)

/-- The block's logits: row `n` of the features against column `k` of the centres. -/
theorem pay1_apply (x0 : FVec Ideal ⟨3, ![1, 2048, 512]⟩ .f32) (x1 : FVec Ideal ⟨2, ![512, 80]⟩ .f32) (n : Fin 2048) (k : Fin 80) :
    k0_pay1 (F := Ideal) x0 x1 (ix2 n k) = ∑ d : Fin 512, x0 (ix3 0 n d) * x1 (ix2 d k) := by
  unfold k0_pay1
  have e := Cert.Lib.Rowwise.eq_plain dot_S2048x512_S512x80_S2048x80_1_0_0_1_n_n rfl rfl rfl rfl rfl rfl
  show FloatOps.matmul dot_S2048x512_S512x80_S2048x80_1_0_0_1_n_n none _ _ (constant ⟨2, ![2048, 80]⟩ .f32 0x00000000#32) (ix2 n k) = _
  rw [e]
  refine (Cert.Lib.Rowwise.plain_matmul_zero_apply none _ _ n k).trans ?_
  refine Finset.sum_congr rfl fun d _ => ?_
  exact congrArg (· * x1 (ix2 d k)) (dropUnit_apply x0 _ n d)

/-- The stored zeros. -/
theorem pay2_apply (y : (⟨2, ![1, 80]⟩ : Shape).Idx) : k0_pay2 (F := Ideal) y = 0 := Ideal.ofBits_zero_f32
theorem pay3_apply (y : (⟨2, ![1, 80]⟩ : Shape).Idx) : k0_pay3 (F := Ideal) y = 0 := Ideal.ofBits_zero_f32

/-- The first accumulator's update: what it held plus the block's column sum. -/
theorem pay4_apply (x0 : FVec Ideal ⟨3, ![1, 2048, 512]⟩ .f32) (x1 : FVec Ideal ⟨2, ![512, 80]⟩ .f32)
    (acc : FVec Ideal ⟨2, ![1, 80]⟩ .f32) (k : Fin 80) :
    k0_pay4 (F := Ideal) x0 x1 acc (ix2 0 k) = acc (ix2 0 k) + ∑ n : Fin 2048, ∑ d : Fin 512, x0 (ix3 0 n d) * x1 (ix2 d k) := by
  unfold k0_pay4
  show shapeCast ⟨2, ![1, 80]⟩ acc _ (ix2 0 k) + shapeCast ⟨2, ![1, 80]⟩ _ _ (ix2 0 k) = _
  rw [shapeCast_self]
  refine congrArg (acc (ix2 0 k) + ·) ?_
  refine (row_apply _ _ k).trans ?_
  refine (colSum_apply (k0_pay1 (F := Ideal) x0 x1) 0x00000000#32 _ _ _ k).trans ?_
  exact Finset.sum_congr rfl fun n _ => pay1_apply x0 x1 n k

/-- The second accumulator's update: what it held plus the block's column sum of squares. -/
theorem pay5_apply (x0 : FVec Ideal ⟨3, ![1, 2048, 512]⟩ .f32) (x1 : FVec Ideal ⟨2, ![512, 80]⟩ .f32)
    (acc : FVec Ideal ⟨2, ![1, 80]⟩ .f32) (k : Fin 80) :
    k0_pay5 (F := Ideal) x0 x1 acc (ix2 0 k) = acc (ix2 0 k)
      + ∑ n : Fin 2048, (∑ d : Fin 512, x0 (ix3 0 n d) * x1 (ix2 d k)) * (∑ d : Fin 512, x0 (ix3 0 n d) * x1 (ix2 d k)) := by
  unfold k0_pay5
  show shapeCast ⟨2, ![1, 80]⟩ acc _ (ix2 0 k) + shapeCast ⟨2, ![1, 80]⟩ _ _ (ix2 0 k) = _
  rw [shapeCast_self]
  refine congrArg (acc (ix2 0 k) + ·) ?_
  refine (row_apply _ _ k).trans ?_
  refine (colSum_apply (mulf (k0_pay1 (F := Ideal) x0 x1) (k0_pay1 (F := Ideal) x0 x1)) 0x00000000#32 _ _ _ k).trans ?_
  refine Finset.sum_congr rfl fun n _ => ?_
  show k0_pay1 (F := Ideal) x0 x1 (ix2 n k) * k0_pay1 (F := Ideal) x0 x1 (ix2 n k) = _
  rw [pay1_apply]

end Arith

variable (V : (c : Dev nD) → (b : Ref sig .tc) → Buf (Elt Ideal) ((c : Thread nD τ).loc b))

/-- The logits of the arrays the region finds. -/
abbrev logits (c : Dev nD) : Fin 32 → Fin 2048 → Fin 80 → EReal := assn (fn3 (V c main_arg0)) (fn2 (V c main_arg1))

/-- The column sums as a `1 × 80` array. -/
def sumRow (c : Dev nD) : FVec Ideal S1x80 .f32 := fun y => sum1 (logits V c) ⟨(y 1).val, idx2_lt1 y⟩
/-- The column sums of squares as a `1 × 80` array. -/
def sumsqRow (c : Dev nD) : FVec Ideal S1x80 .f32 := fun y => sum2 (logits V c) ⟨(y 1).val, idx2_lt1 y⟩

/-! ## The blocks the points read -/

section Blocks

/-- The two arrays the region reads, and point `t`'s block of each, at their literal types. -/
abbrev xarr (c : Dev nD) : FVec Ideal ⟨3, ![32, 2048, 512]⟩ .f32 := V c main_arg0
abbrev clarr (c : Dev nD) : FVec Ideal ⟨2, ![512, 80]⟩ .f32 := V c main_arg1
abbrev xblk (c : Dev nD) (t : Fin cfg0.N) : FVec Ideal ⟨3, ![1, 2048, 512]⟩ .f32 := iblk0 V c 0 t
abbrev clblk (c : Dev nD) (t : Fin cfg0.N) : FVec Ideal ⟨2, ![512, 80]⟩ .f32 := iblk0 V c 1 t

/-- Point `t` reads block `t` along the batch axis of the features, and the centres whole. -/
theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index0_1 : ∀ t : Fin cfg0.N, win0_1.index t 0 = 0 ∧ win0_1.index t 1 = 0 :=
  (by decide +kernel : ∀ t : Fin grid0.N, win0_1.index t 0 = 0 ∧ win0_1.index t 1 = 0)

theorem xblk_apply (c : Dev nD) (t : Fin cfg0.N) (ht : t.val < 32) (n : Fin 2048) (d : Fin 512) :
    xblk V c t (ix3 0 n d) = xarr V c (ix3 ⟨t.val, ht⟩ n d) := by
  unfold xblk xarr iblk0
  rw [View.read_apply]
  show V c main_arg0 _ = V c main_arg0 _
  congr 1
  funext a
  apply Fin.ext
  obtain ⟨i0, i1, i2⟩ := index0_0 t
  match a with
  | ⟨0, _⟩ => show win0_0.index t 0 * 1 + 1 * 0 = t.val; rw [i0]; omega
  | ⟨1, _⟩ => show win0_0.index t 1 * 2048 + 1 * n.val = n.val; rw [i1]; omega
  | ⟨2, _⟩ => show win0_0.index t 2 * 512 + 1 * d.val = d.val; rw [i2]; omega

theorem clblk_apply (c : Dev nD) (t : Fin cfg0.N) (d : Fin 512) (k : Fin 80) :
    clblk V c t (ix2 d k) = clarr V c (ix2 d k) := by
  unfold clblk clarr iblk0
  rw [View.read_apply]
  show V c main_arg1 _ = V c main_arg1 _
  congr 1
  funext a
  apply Fin.ext
  obtain ⟨i0, i1⟩ := index0_1 t
  match a with
  | ⟨0, _⟩ => show win0_1.index t 0 * 512 + 1 * d.val = d.val; rw [i0]; omega
  | ⟨1, _⟩ => show win0_1.index t 1 * 80 + 1 * k.val = k.val; rw [i1]; omega

end Blocks

/-! ## The running sums -/

section Running

/-- Block `b`'s column sums of the logits and of their squares (zero past the grid). -/
def blockSum (c : Dev nD) (b : Nat) (k : Fin 80) : EReal :=
  if hb : b < 32 then ∑ n : Fin 2048, logits V c ⟨b, hb⟩ n k else 0
def blockSq (c : Dev nD) (b : Nat) (k : Fin 80) : EReal :=
  if hb : b < 32 then ∑ n : Fin 2048, logits V c ⟨b, hb⟩ n k * logits V c ⟨b, hb⟩ n k else 0

/-- A row of point `t`'s product is the logits' row of batch `t`. -/
theorem row_eq (c : Dev nD) (t : Fin cfg0.N) (ht : t.val < 32) (n : Fin 2048) (k : Fin 80) :
    ∑ d : Fin 512, xblk V c t (ix3 0 n d) * clblk V c t (ix2 d k) = logits V c ⟨t.val, ht⟩ n k := by
  show _ = ∑ d : Fin 512, xarr V c (ix3 ⟨t.val, ht⟩ n d) * clarr V c (ix2 d k)
  refine Finset.sum_congr rfl fun d _ => ?_
  rw [xblk_apply V c t ht n d, clblk_apply V c t d k]

theorem blockSum_eq (c : Dev nD) (t : Fin cfg0.N) (k : Fin 80) :
    ∑ n : Fin 2048, ∑ d : Fin 512, xblk V c t (ix3 0 n d) * clblk V c t (ix2 d k) = blockSum V c t.val k := by
  have ht : t.val < 32 := lt_of_lt_of_eq t.isLt N_0
  unfold blockSum
  rw [dif_pos ht]
  exact Finset.sum_congr rfl fun n _ => row_eq V c t ht n k

theorem blockSq_eq (c : Dev nD) (t : Fin cfg0.N) (k : Fin 80) :
    ∑ n : Fin 2048, (∑ d : Fin 512, xblk V c t (ix3 0 n d) * clblk V c t (ix2 d k))
        * (∑ d : Fin 512, xblk V c t (ix3 0 n d) * clblk V c t (ix2 d k)) = blockSq V c t.val k := by
  have ht : t.val < 32 := lt_of_lt_of_eq t.isLt N_0
  unfold blockSq
  rw [dif_pos ht]
  exact Finset.sum_congr rfl fun n _ => by rw [row_eq V c t ht n k]

/-- After point `n` the first accumulator holds the column sums of blocks `0 … n`. -/
theorem outsAt_fst (c : Dev nD) : ∀ (n : ℕ) (h : n < cfg0.N) (k : Fin 80),
    ((outsAt0 V c n h).1 (ix2 0 k) : EReal) = ∑ s ∈ Finset.range (n + 1), blockSum V c s k
  | 0, h, k => by
    rw [outsAt0_A V c ⟨0, h⟩ rfl]
    dsimp only
    refine (congrFun (out_A_2 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl) (xblk V c ⟨0, h⟩) (clblk V c ⟨0, h⟩)) (ix2 0 k)).trans ?_
    rw [pay4_apply, pay2_apply, zero_add, Finset.sum_range_one]
    exact blockSum_eq V c ⟨0, h⟩ k
  | n + 1, h, k => by
    have hN : cfg0.N = 32 := N_0
    have hB : ¬(⟨n + 1, h⟩ : Fin cfg0.N).val % 32 = 0 := by dsimp only; omega
    rw [outsAt0_B V c ⟨n + 1, h⟩ hB]
    dsimp only
    refine (congrFun (out_B_2 (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun h' => hB ((hcond0_0 ⟨n + 1, h⟩).mp h')) (xblk V c ⟨n + 1, h⟩) (clblk V c ⟨n + 1, h⟩)
      (outsAt0 V c n (Nat.lt_of_succ_lt h)).1 (outsAt0 V c n (Nat.lt_of_succ_lt h)).2) (ix2 0 k)).trans ?_
    rw [pay4_apply, Finset.sum_range_succ _ (n + 1), outsAt_fst c n (Nat.lt_of_succ_lt h) k]
    exact congrArg (_ + ·) (blockSum_eq V c ⟨n + 1, h⟩ k)

end Running

section Running2

/-- After point `n` the second accumulator holds the column sums of squares of blocks `0 … n`. -/
theorem outsAt_snd (c : Dev nD) : ∀ (n : ℕ) (h : n < cfg0.N) (k : Fin 80),
    ((outsAt0 V c n h).2 (ix2 0 k) : EReal) = ∑ s ∈ Finset.range (n + 1), blockSq V c s k
  | 0, h, k => by
    rw [outsAt0_A V c ⟨0, h⟩ rfl]
    dsimp only
    refine (congrFun (out_A_3 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl) (xblk V c ⟨0, h⟩) (clblk V c ⟨0, h⟩)) (ix2 0 k)).trans ?_
    rw [pay5_apply, pay3_apply, zero_add, Finset.sum_range_one]
    exact blockSq_eq V c ⟨0, h⟩ k
  | n + 1, h, k => by
    have hN : cfg0.N = 32 := N_0
    have hB : ¬(⟨n + 1, h⟩ : Fin cfg0.N).val % 32 = 0 := by dsimp only; omega
    rw [outsAt0_B V c ⟨n + 1, h⟩ hB]
    dsimp only
    refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun h' => hB ((hcond0_0 ⟨n + 1, h⟩).mp h')) (xblk V c ⟨n + 1, h⟩) (clblk V c ⟨n + 1, h⟩)
      (outsAt0 V c n (Nat.lt_of_succ_lt h)).1 (outsAt0 V c n (Nat.lt_of_succ_lt h)).2) (ix2 0 k)).trans ?_
    rw [pay5_apply, Finset.sum_range_succ _ (n + 1), outsAt_snd c n (Nat.lt_of_succ_lt h) k]
    exact congrArg (_ + ·) (blockSq_eq V c ⟨n + 1, h⟩ k)

/-- The last point of the grid. -/
abbrev tLast : Fin cfg0.N := ⟨31, by rw [show cfg0.N = 32 from N_0]; decide⟩

/-- After the last point the accumulators hold the sums over all 32 blocks. -/
theorem last_fst (c : Dev nD) : (outsAt0 V c tLast.val tLast.isLt).1 = sumRow V c := by
  funext y
  obtain ⟨a, k, rfl⟩ : ∃ (a : Fin 1) (k : Fin 80), y = ix2 a k := ⟨y 0, y 1, eq_ix2 y⟩
  obtain rfl : a = 0 := Subsingleton.elim _ _
  refine (outsAt_fst V c 31 tLast.isLt k).trans ?_
  show _ = ∑ b : Fin 32, ∑ n : Fin 2048, logits V c b n k
  rw [← Fin.sum_univ_eq_sum_range (fun s => blockSum V c s k) 32]
  refine Finset.sum_congr rfl fun b _ => ?_
  unfold blockSum
  rw [dif_pos b.isLt]

theorem last_snd (c : Dev nD) : (outsAt0 V c tLast.val tLast.isLt).2 = sumsqRow V c := by
  funext y
  obtain ⟨a, k, rfl⟩ : ∃ (a : Fin 1) (k : Fin 80), y = ix2 a k := ⟨y 0, y 1, eq_ix2 y⟩
  obtain rfl : a = 0 := Subsingleton.elim _ _
  refine (outsAt_snd V c 31 tLast.isLt k).trans ?_
  show _ = ∑ b : Fin 32, ∑ n : Fin 2048, logits V c b n k * logits V c b n k
  rw [← Fin.sum_univ_eq_sum_range (fun s => blockSq V c s k) 32]
  refine Finset.sum_congr rfl fun b _ => ?_
  unfold blockSq
  rw [dif_pos b.isLt]

end Running2

/-! ## The write-back -/

section Final

/-- The one write-back of the first accumulator, at the last point, writes the column sums: its block is the whole array. -/
theorem flushed_2 (c : Dev nD) (t : Fin cfg0.N) (hf : (cfg0.win 2).flush t = true) :
    (dat0 V c).flushed 2 t = ((cfg0.win 2).blk t).view.read (Elt Ideal) (sumRow V c) := by
  have hN : cfg0.N = 32 := N_0
  have h31 : t.val = 31 := by have := (flush0_2 t).mp hf; have := t.isLt; omega
  obtain rfl : t = tLast := Fin.ext h31
  show (cfg0.win 2).cut (grid0.coords tLast) ((dat0 V c).after 2 tLast) = _
  rw [after0_2, last_fst]
  have hz' : (fun a => win0_2.index tLast a * main_v0_0.ty.shape.size a) = fun _ => 0 := funext fun a => by fin_cases a <;> decide
  exact (Memref.read_access_unit_zero (Elt Ideal) main_v0_0 hz' (fun a => by rw [congrFun hz' a]; simp) (sumRow V c)).symm

theorem flushed_3 (c : Dev nD) (t : Fin cfg0.N) (hf : (cfg0.win 3).flush t = true) :
    (dat0 V c).flushed 3 t = ((cfg0.win 3).blk t).view.read (Elt Ideal) (sumsqRow V c) := by
  have hN : cfg0.N = 32 := N_0
  have h31 : t.val = 31 := by have := (flush0_3 t).mp hf; have := t.isLt; omega
  obtain rfl : t = tLast := Fin.ext h31
  show (cfg0.win 3).cut (grid0.coords tLast) ((dat0 V c).after 3 tLast) = _
  rw [after0_3, last_snd]
  have hz' : (fun a => win0_3.index tLast a * main_v0_1.ty.shape.size a) = fun _ => 0 := funext fun a => by fin_cases a <;> decide
  exact (Memref.read_access_unit_zero (Elt Ideal) main_v0_1 hz' (fun a => by rw [congrFun hz' a]; simp) (sumsqRow V c)).symm

/-- After the region the first accumulated array holds the column sums over all 32 blocks. -/
theorem sum_final (c : Dev nD) : (dat0 V c).arrAt 2 cfg0.N = sumRow V c :=
  (dat0 V c).arrAt_eq_of_cover 2 (sumRow V c) (flushed_2 V c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 80 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 80 from by decide +kernel]; omega⟩

/-- After the region the second accumulated array holds the column sums of squares. -/
theorem sumsq_final (c : Dev nD) : (dat0 V c).arrAt 3 cfg0.N = sumsqRow V c :=
  (dat0 V c).arrAt_eq_of_cover 3 (sumsqRow V c) (flushed_3 V c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 80 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 80 from by decide +kernel]; omega⟩

end Final

end Cert.KernelIdeal.Region0

end
-- ==== Proof.R1Prob.lean ====
/-
  Region 1's body, first half, read at an element: the softmax probabilities of one block's rows and their column sums.

  The body's probability payload is a slice of a quotient of two vectors built from one vector of scaled logits; the
  vectors are named here (`Zv`, `Ev`), each is read at an index, and the two payloads follow.
-/
import proofs.«143529_j19069654794906_1_alg».proof.Proof.Gen.KernelIdeal.Skeleton
import proofs.«143529_j19069654794906_1_alg».proof.Proof.Spec
import proofs.«143529_j19069654794906_1_alg».proof.Proof.Args
import proofs.«143529_j19069654794906_1_alg».proof.Proof.LibRowwise
import Idealize.ShloMosaic.Lib.Pipeline.Value

noncomputable section

namespace Cert.KernelIdeal.R1Prob

open Idealize.ShloMosaic Idealize.ShloMosaic.ValueIdx
open Cert.KernelIdeal Cert.KernelIdeal.Gen Cert.Vlad

variable (x0 : Vec Ideal S1x2048x512 .f32) (x1 : Vec Ideal S512x80 .f32) (m4 v5 g6 b7 : Vec Ideal S1x80 .f32)

/-- One block's logits (2048 rows of features times the centres), as a table that does not depend on the batch. -/
abbrev blockLogits : Fin 32 → Fin 2048 → Fin 80 → EReal := fun _ n k => ∑ d : Fin 512, x0 (ix3 0 n d) * x1 (ix2 d k)

/-- The block's probabilities under the mean, variance, scale and shift rows. -/
abbrev blockProbs : Fin 32 → Fin 2048 → Fin 64 → EReal :=
  probK (blockLogits x0 x1) (row0 m4) (row0 v5) (row0 g6) (row0 b7)

/-- The scaled and shifted logits as a vector. -/
def Zv : FVec Ideal S2048x80 .f32 :=
  addf (mulf (mulf (subf
      (matmul dot_S2048x512_S512x80_S2048x80_1_0_0_1_n_n none (k1_pay2 x0) (truncf .bf16 x1 bitsLt_bf16_f32) (constant S2048x80 .f32 0x00000000#32))
      (broadcastTo S2048x80 (shapeCast S1x80 m4 shapeCasts_S1x80_S1x80) broadcasts_S1x80_S2048x80))
      (broadcastTo S2048x80 (rsqrt (addf (shapeCast S1x80 v5 shapeCasts_S1x80_S1x80) (broadcast S1x80 (Scalar.ofBits .f32 0x3727C5AC#32)))) broadcasts_S1x80_S2048x80))
      (broadcastTo S2048x80 (shapeCast S1x80 g6 shapeCasts_S1x80_S1x80) broadcasts_S1x80_S2048x80))
    (broadcastTo S2048x80 (shapeCast S1x80 b7 shapeCasts_S1x80_S1x80) broadcasts_S1x80_S2048x80)

/-- The exponentials of the logits less their row maximum, as a vector. -/
def Ev : FVec Ideal S2048x80 .f32 :=
  exp (subf (Zv x0 x1 m4 v5 g6 b7)
    (broadcastTo S2048x80
      (shapeCast S2048x1
        (maximumf (broadcast S2048 (Scalar.ofBits .f32 0xFF800000#32))
          (multiReduction .maximumf [1] S2048 (Zv x0 x1 m4 v5 g6 b7) 0xFF800000#32 reduces_S2048x80_S2048 (.inl rfl) rfl))
        shapeCasts_S2048_S2048x1)
      broadcasts_S2048x1_S2048x80))

theorem pay3_eq : k1_pay3 x0 x1 m4 v5 g6 b7 =
    extractStridedSlice S2048x64 ![0, 0]
      (divf (Ev x0 x1 m4 v5 g6 b7)
        (broadcastTo S2048x80
          (shapeCast S2048x1
            (multiReduction .add [1] S2048 (Ev x0 x1 m4 v5 g6 b7) 0x00000000#32 reduces_S2048x80_S2048 (.inl rfl) rfl)
            shapeCasts_S2048_S2048x1)
          broadcasts_S2048x1_S2048x80))
      slices_S2048x80_o0_0_S2048x64 := rfl

/-- The [1, 2048, 512] block viewed [2048, 512] and narrowed reads, at (n, d), the block at (0, n, d). -/
theorem pay2_apply (n : Fin 2048) (d : Fin 512) : k1_pay2 x0 (ix2 n d) = x0 (ix3 0 n d) := by
  show shapeCast S2048x512 x0 shapeCasts_S1x2048x512_S2048x512 (ix2 n d) = x0 (ix3 0 n d)
  refine shapeCast_apply x0 _ (ix2 n d) (ix3 0 n d) ?_
  rw [Shape.rowMajor_val_three, Shape.rowMajor_val_two]
  show ((0 : Fin 1).val * 2048 + n.val) * 512 + d.val = n.val * 512 + d.val
  simp

/-- The product of the block's rows with the centres, at (n, k). -/
theorem logits_apply (n : Fin 2048) (k : Fin 80) :
    matmul dot_S2048x512_S512x80_S2048x80_1_0_0_1_n_n none (k1_pay2 x0) (truncf .bf16 x1 bitsLt_bf16_f32)
      (constant S2048x80 .f32 0x00000000#32) (ix2 n k) = ∑ d : Fin 512, x0 (ix3 0 n d) * x1 (ix2 d k) := by
  have hD : dot_S2048x512_S512x80_S2048x80_1_0_0_1_n_n = DotDims.plain 2048 512 80 :=
    Cert.Lib.Rowwise.eq_plain _ rfl rfl rfl rfl rfl rfl
  rw [hD]
  refine (Cert.Lib.Rowwise.plain_matmul_zero_apply none _ _ n k).trans ?_
  refine Finset.sum_congr rfl fun d _ => ?_
  rw [pay2_apply]
  rfl

/-- A [1, 80] row broadcast down 2048 rows reads, at (n, k), the row at (0, k). -/
theorem rowBroadcast_apply {α : Type} (r : S1x80.Idx → α) (n : Fin 2048) (k : Fin 80) :
    broadcastTo S2048x80 r broadcasts_S1x80_S2048x80 (ix2 n k) = r (ix2 0 k) := by
  refine broadcastTo_apply r _ (ix2 n k) (ix2 0 k) fun a => ?_
  match a with
  | ⟨0, _⟩ => exact (if_pos rfl).symm
  | ⟨1, _⟩ => exact (if_neg (show ¬((80 : Nat) = 1) by decide)).symm

/-- The scaled and shifted logit at (n, k). -/
theorem Zv_apply (n : Fin 2048) (k : Fin 80) :
    Zv x0 x1 m4 v5 g6 b7 (ix2 n k) = logit (blockLogits x0 x1) (row0 m4) (row0 v5) (row0 g6) (row0 b7) 0 n k := by
  unfold Zv
  simp only [shapeCast_self, addf_apply, mulf_apply, subf_apply, rowBroadcast_apply, logits_apply]
  rfl

/-- The row maximum: −∞ joined with the lane maximum of the logits. -/
theorem rowMax_apply (n : Fin 2048) :
    maximumf (broadcast S2048 (Scalar.ofBits .f32 0xFF800000#32))
      (multiReduction .maximumf [1] S2048 (Zv x0 x1 m4 v5 g6 b7) 0xFF800000#32 reduces_S2048x80_S2048 (.inl rfl) rfl) (ix1 n)
      = logitMax (blockLogits x0 x1) (row0 m4) (row0 v5) (row0 g6) (row0 b7) 0 n := by
  show max _ (multiReduction .maximumf [1] S2048 (Zv x0 x1 m4 v5 g6 b7) 0xFF800000#32 reduces_S2048x80_S2048 (.inl rfl) rfl (ix1 n)) = _
  refine (congrArg (max _) (Cert.Lib.Rowwise.laneMax_apply (Zv x0 x1 m4 v5 g6 b7) 0xFF800000#32 reduces_S2048x80_S2048 (.inl rfl) rfl n)).trans ?_
  simp only [Zv_apply]
  rfl

/-- The exponential at (n, k). -/
theorem Ev_apply (n : Fin 2048) (k : Fin 80) :
    Ev x0 x1 m4 v5 g6 b7 (ix2 n k) = expo (blockLogits x0 x1) (row0 m4) (row0 v5) (row0 g6) (row0 b7) 0 n k := by
  unfold Ev
  show Ideal.exp (Zv x0 x1 m4 v5 g6 b7 (ix2 n k) - broadcastTo S2048x80 _ broadcasts_S2048x1_S2048x80 (ix2 n k)) = _
  rw [Cert.Lib.Rowwise.columnBroadcast_apply _ _ (by decide) n k, Cert.Lib.Rowwise.column_apply, rowMax_apply, Zv_apply]
  rfl

/-- The row's sum of exponentials. -/
theorem rowSum_apply (n : Fin 2048) :
    multiReduction .add [1] S2048 (Ev x0 x1 m4 v5 g6 b7) 0x00000000#32 reduces_S2048x80_S2048 (.inl rfl) rfl (ix1 n)
      = ∑ k' : Fin 80, expo (blockLogits x0 x1) (row0 m4) (row0 v5) (row0 g6) (row0 b7) 0 n k' := by
  refine (Cert.Lib.Rowwise.laneSum_apply (Ev x0 x1 m4 v5 g6 b7) 0x00000000#32 reduces_S2048x80_S2048 (.inl rfl) rfl n).trans ?_
  exact Finset.sum_congr rfl fun k' _ => Ev_apply x0 x1 m4 v5 g6 b7 n k'

/-- The body's probability payload at row `n`, cluster `k`. -/
theorem probs_apply (n : Fin 2048) (k : Fin 64) :
    k1_pay3 x0 x1 m4 v5 g6 b7 (ix2 n k) = blockProbs x0 x1 m4 v5 g6 b7 0 n k := by
  rw [pay3_eq]
  refine (extractStridedSlice_apply _ _ _ (ix2 n k) (ix2 n ⟨k.val, by have := k.isLt; omega⟩) fun a => ?_).trans ?_
  · match a with
    | ⟨0, _⟩ => exact (Nat.zero_add _).symm
    | ⟨1, _⟩ => exact (Nat.zero_add _).symm
  show Ideal.div (Ev x0 x1 m4 v5 g6 b7 (ix2 n _)) (broadcastTo S2048x80 _ broadcasts_S2048x1_S2048x80 (ix2 n _)) = _
  rw [Cert.Lib.Rowwise.columnBroadcast_apply _ _ (by decide) n _, Cert.Lib.Rowwise.column_apply, rowSum_apply, Ev_apply]
  rfl

/-- The body's column-sum payload at cluster `k`. -/
theorem asum_apply (k : Fin 64) :
    k1_pay4 x0 x1 m4 v5 g6 b7 (ix2 0 k) = ∑ n : Fin 2048, k1_pay3 x0 x1 m4 v5 g6 b7 (ix2 n k) := by
  show shapeCast S1x64 (multiReduction .add [0] S64 (k1_pay3 x0 x1 m4 v5 g6 b7) 0x00000000#32 reduces_S2048x64_S64 (.inl rfl) rfl)
    shapeCasts_S64_S1x64 (ix2 0 k) = _
  refine (shapeCast_apply _ _ (ix2 0 k) (ix1 k) ?_).trans ?_
  · rw [Shape.rowMajor_val_one, Shape.rowMajor_val_two]
    show k.val = (0 : Fin 1).val * 64 + k.val
    simp
  refine (Ideal.multiReduction_add_single (k1_pay3 x0 x1 m4 v5 g6 b7) 0x00000000#32 reduces_S2048x64_S64 (.inl rfl) rfl (ix1 k)).trans ?_
  refine Finset.sum_congr rfl fun n _ => congrArg _ ?_
  funext a
  match a with
  | ⟨0, _⟩ => rfl
  | ⟨1, _⟩ => rfl

end Cert.KernelIdeal.R1Prob

end
-- ==== Proof.R1Agg.lean ====
/-
  Region 1's body, second half, read at an element: the residual aggregate of one block and its two normalisations.
-/
import proofs.«143529_j19069654794906_1_alg».proof.Proof.Gen.KernelIdeal.Skeleton
import proofs.«143529_j19069654794906_1_alg».proof.Proof.Spec
import proofs.«143529_j19069654794906_1_alg».proof.Proof.Args
import proofs.«143529_j19069654794906_1_alg».proof.Proof.LibRowwise
import Idealize.ShloMosaic.Lib.Pipeline.Value
import Idealize.ShloMosaic.Lib.ValueLayout

noncomputable section

namespace Cert.KernelIdeal.R1Agg

open Idealize.ShloMosaic Idealize.ShloMosaic.ValueIdx
open Cert.KernelIdeal Cert.KernelIdeal.Gen Cert.Vlad

/-! ## The product contracting the rows of both operands -/

theorem lhs_dot_0 (j : S512x64.Idx) (q : dot_S2048x512_S2048x64_S512x64_0_0_1_1_n_n.contr.Idx) :
    (dot_S2048x512_S2048x64_S512x64_0_0_1_1_n_n.lhsIdx j q 0).val = (q ⟨0, Nat.one_pos⟩).val := rfl
theorem lhs_dot_1 (j : S512x64.Idx) (q : dot_S2048x512_S2048x64_S512x64_0_0_1_1_n_n.contr.Idx) :
    (dot_S2048x512_S2048x64_S512x64_0_0_1_1_n_n.lhsIdx j q 1).val = (j 0).val := rfl
theorem rhs_dot_0 (j : S512x64.Idx) (q : dot_S2048x512_S2048x64_S512x64_0_0_1_1_n_n.contr.Idx) :
    (dot_S2048x512_S2048x64_S512x64_0_0_1_1_n_n.rhsIdx j q 0).val = (q ⟨0, Nat.one_pos⟩).val := rfl
theorem rhs_dot_1 (j : S512x64.Idx) (q : dot_S2048x512_S2048x64_S512x64_0_0_1_1_n_n.contr.Idx) :
    (dot_S2048x512_S2048x64_S512x64_0_0_1_1_n_n.rhsIdx j q 1).val = (j 1).val := rfl

/-- The product of a `[2048, 512]` and a `[2048, 64]` vector contracting axis 0 of both, into the zero word, at `(d, k)`:
    the sum over the rows `n` of `a(n, d) · b(n, k)`. -/
theorem dot_rows_apply {φ₁ φ₂ : FTy} (prec : Option ContractPrecision) (a : FVec Ideal S2048x512 φ₁) (b : FVec Ideal S2048x64 φ₂)
    (d : Fin 512) (k : Fin 64) :
    FloatOps.matmul dot_S2048x512_S2048x64_S512x64_0_0_1_1_n_n prec a b (constant S512x64 .f32 0x00000000#32) (ix2 d k)
      = ∑ n : Fin 2048, a (ix2 n d) * b (ix2 n k) := by
  rw [Ideal.matmul_constant_zero_apply,
    ← Equiv.sum_comp (contrEquiv1 dot_S2048x512_S2048x64_S512x64_0_0_1_1_n_n 2048 rfl rfl).symm]
  refine Finset.sum_congr rfl fun n _ => ?_
  have hn := contrEquiv1_symm_val dot_S2048x512_S2048x64_S512x64_0_0_1_1_n_n 2048 rfl rfl n
  have el : dot_S2048x512_S2048x64_S512x64_0_0_1_1_n_n.lhsIdx (ix2 d k)
      ((contrEquiv1 dot_S2048x512_S2048x64_S512x64_0_0_1_1_n_n 2048 rfl rfl).symm n) = ix2 n d :=
    funext fun a => Fin.ext (by
      match a with
      | ⟨0, _⟩ => exact (lhs_dot_0 _ _).trans hn
      | ⟨1, _⟩ => exact lhs_dot_1 _ _)
  have er : dot_S2048x512_S2048x64_S512x64_0_0_1_1_n_n.rhsIdx (ix2 d k)
      ((contrEquiv1 dot_S2048x512_S2048x64_S512x64_0_0_1_1_n_n 2048 rfl rfl).symm n) = ix2 n k :=
    funext fun a => Fin.ext (by
      match a with
      | ⟨0, _⟩ => exact (rhs_dot_0 _ _).trans hn
      | ⟨1, _⟩ => exact rhs_dot_1 _ _)
  rw [el, er]

/-! ## A sum over the rows -/

/-- A sum over the rows (axis 0) of an `[A, B]` vector, at column `k`. -/
theorem colSum_apply {A B : Nat} {φ : FTy} (src : FVec Ideal ⟨2, ![A, B]⟩ φ) (acc : BitVec φ.bits)
    (h : (⟨2, ![A, B]⟩ : Shape).Reduces [0] ⟨1, ![B]⟩) (hφ : FKind.Formats φ) (hacc : acc = FKind.add.neutral φ hφ) (k : Fin B) :
    multiReduction .add [0] ⟨1, ![B]⟩ src acc h hφ hacc (ix1 k) = ∑ d : Fin A, src (ix2 d k) := by
  rw [Ideal.multiReduction_add_single]
  exact Finset.sum_congr rfl fun d _ => congrArg src
    (funext fun a => Fin.ext (by match a with | ⟨0, _⟩ => rfl | ⟨1, _⟩ => rfl))

/-- A `[1, 1]` vector broadcast to `[A, B]` reads its one entry everywhere. -/
theorem broadcastTo_11_ab_apply {A B : Nat} {α : Type} (v : (⟨2, ![1, 1]⟩ : Shape).Idx → α)
    (h : (⟨2, ![1, 1]⟩ : Shape).Broadcasts ⟨2, ![A, B]⟩) (p : Fin A) (q : Fin B) :
    broadcastTo ⟨2, ![A, B]⟩ v h (ix2 p q) = v (ix2 0 0) := by
  refine broadcastTo_apply v h (ix2 p q) (ix2 0 0) fun a => ?_
  match a with
  | ⟨0, _⟩ => rfl
  | ⟨1, _⟩ => rfl

/-- The zero word is the sum's starting word. -/
theorem addNeutral : (0x00000000#32 : BitVec 32) = FKind.add.neutral .f32 (Or.inl rfl) := rfl

/-! ## The body's intermediate values -/

variable (x0 : Vec Ideal S1x2048x512 .f32) (P : FVec Ideal S2048x64 .f32) (s : FVec Ideal S1x64 .f32) (c2 : Vec Ideal S1x512x64 .f32)

/-- The block's features as a `[2048, 512]` vector, at `(n, d)`. -/
theorem feat_apply (n : Fin 2048) (d : Fin 512) : k1_pay2 x0 (ix2 n d) = x0 (ix3 0 n d) := by
  unfold k1_pay2
  rw [truncf_apply]
  exact shapeCast_1ab_ab_apply x0 _ n d

/-- The residual aggregate as the body forms it: the contracted product less the column sums times the second centres. -/
def resid : FVec Ideal S512x64 .f32 :=
  subf (matmul dot_S2048x512_S2048x64_S512x64_0_0_1_1_n_n none (k1_pay2 x0) (truncf .bf16 P bitsLt_bf16_f32)
      (constant S512x64 .f32 0x00000000#32))
    (mulf (broadcastTo S512x64 s broadcasts_S1x64_S512x64) (shapeCast S512x64 c2 shapeCasts_S1x512x64_S512x64))

/-- Each column's norm, at least ε, as a `[1, 64]` vector. -/
def colN : FVec Ideal S1x64 .f32 :=
  maximumf (sqrt (shapeCast S1x64 (multiReduction .add [0] S64 (mulf (resid x0 P s c2) (resid x0 P s c2)) 0x00000000#32
      reduces_S512x64_S64 (Or.inl rfl) addNeutral) shapeCasts_S64_S1x64))
    (broadcast S1x64 (Scalar.ofBits .f32 0x2B8CBCCC#32))

/-- The aggregate with every column divided by its norm. -/
def intra : FVec Ideal S512x64 .f32 :=
  divf (resid x0 P s c2) (broadcastTo S512x64 (colN x0 P s c2) broadcasts_S1x64_S512x64)

/-- The whole block's norm, at least ε, as a `[1, 1]` vector. -/
def allN : FVec Ideal S1x1 .f32 :=
  maximumf (sqrt (shapeCast S1x1 (multiReduction .add [0] S1
      (shapeCast S512x1 (multiReduction .add [1] S512 (mulf (intra x0 P s c2) (intra x0 P s c2)) 0x00000000#32
        reduces_S512x64_S512 (Or.inl rfl) addNeutral) shapeCasts_S512_S512x1)
      0x00000000#32 reduces_S512x1_S1 (Or.inl rfl) addNeutral) shapeCasts_S1_S1x1))
    (broadcast S1x1 (Scalar.ofBits .f32 0x2B8CBCCC#32))

/-- The stored payload is the twice-normalised aggregate with a unit axis in front. -/
theorem pay_eq : k1_pay1 (k1_pay2 x0) P s c2
    = shapeCast S1x512x64 (divf (intra x0 P s c2) (broadcastTo S512x64 (allN x0 P s c2) broadcasts_S1x1_S512x64))
        shapeCasts_S512x64_S1x512x64 := rfl

/-! ## Their values at an index -/

/-- A square root at an index is the square root of the element. -/
theorem sqrt_apply {sh : Shape} {φ : FTy} (v : FVec Ideal sh φ) (i : sh.Idx) : sqrt v i = Ideal.sqrt (v i) := rfl

/-- The ε splat reads ε everywhere. -/
theorem eps_apply {sh : Shape} (i : sh.Idx) :
    (broadcast sh (Scalar.ofBits (F := Ideal) .f32 0x2B8CBCCC#32) : FVec Ideal sh .f32) i = epsL2 := rfl

section Values

variable (hs : ∀ k : Fin 64, s (ix2 0 k) = ∑ n : Fin 2048, P (ix2 n k))
include hs

theorem resid_apply (d : Fin 512) (k : Fin 64) :
    resid x0 P s c2 (ix2 d k)
      = vlad (fun _ n k => P (ix2 n k)) (fun _ n d => x0 (ix3 0 n d)) (slab0 c2) 0 d k := by
  unfold resid
  rw [subf_apply, mulf_apply, broadcastTo_1b_ab_apply, shapeCast_1ab_ab_apply, hs]
  simp only [matmul]
  rw [dot_rows_apply]
  simp only [feat_apply, truncf_apply]
  rfl

theorem colN_apply (k : Fin 64) :
    colN x0 P s c2 (ix2 0 k)
      = colNorm (fun _ n k => P (ix2 n k)) (fun _ n d => x0 (ix3 0 n d)) (slab0 c2) 0 k := by
  unfold colN
  rw [maximumf_apply, eps_apply, sqrt_apply, shapeCast_a_1a_apply, colSum_apply]
  simp only [mulf_apply, resid_apply x0 P s c2 hs]
  rfl

theorem intra_apply (d : Fin 512) (k : Fin 64) :
    intra x0 P s c2 (ix2 d k)
      = vladIntra (fun _ n k => P (ix2 n k)) (fun _ n d => x0 (ix3 0 n d)) (slab0 c2) 0 d k := by
  unfold intra
  rw [divf_apply, broadcastTo_1b_ab_apply, resid_apply x0 P s c2 hs, colN_apply x0 P s c2 hs]
  rfl

theorem allN_apply :
    allN x0 P s c2 (ix2 0 0)
      = allNorm (fun _ n k => P (ix2 n k)) (fun _ n d => x0 (ix3 0 n d)) (slab0 c2) 0 := by
  unfold allN
  rw [maximumf_apply, eps_apply, sqrt_apply, shapeCast_a_1a_apply, colSum_apply]
  refine congrArg (fun t => max (Ideal.sqrt t) epsL2) (Finset.sum_congr rfl fun d _ => ?_)
  rw [Cert.Lib.Rowwise.column_apply, Cert.Lib.Rowwise.laneSum_apply]
  simp only [mulf_apply, intra_apply x0 P s c2 hs]

end Values

/-- The body's stored payload at feature `d`, cluster `k`, for any probability block `P` whose column sums are `s`:
    the normalised aggregate of the tables `P`, the block's features and the second centres (none depends on the batch). -/
theorem agg_apply (hs : ∀ k : Fin 64, s (ix2 0 k) = ∑ n : Fin 2048, P (ix2 n k)) (d : Fin 512) (k : Fin 64) :
    k1_pay1 (k1_pay2 x0) P s c2 (ix3 0 d k)
      = vladOut (fun _ n k => P (ix2 n k)) (fun _ n d => x0 (ix3 0 n d)) (slab0 c2) 0 d k := by
  rw [pay_eq, shapeCast_ab_1ab_apply, divf_apply, broadcastTo_11_ab_apply, intra_apply x0 P s c2 hs, allN_apply x0 P s c2 hs]
  rfl

end Cert.KernelIdeal.R1Agg

end
-- ==== Proof.Region1.lean ====
/-
  Region 1: what the output array holds when the region is left.

  Each of the 32 points reads one batch of the features and the whole of the other six arrays, and writes one batch of the
  output. What a point writes is the normalised aggregate of its blocks; every function of the specification at batch `b`
  reads its tables at `b` only, so this is batch `b` of the normalised aggregate of the whole arrays. The 32 blocks cover
  the output, which therefore ends holding that aggregate.
-/
import proofs.«143529_j19069654794906_1_alg».proof.Proof.Gen.KernelIdeal.Frame
import proofs.«143529_j19069654794906_1_alg».proof.Proof.Spec
import proofs.«143529_j19069654794906_1_alg».proof.Proof.Args
import proofs.«143529_j19069654794906_1_alg».proof.Proof.R1Prob
import proofs.«143529_j19069654794906_1_alg».proof.Proof.R1Agg
import Idealize.ShloMosaic.Lib.Pipeline.Value

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Vlad

/-! ## Each function of the specification at batch `b` reads its tables at `b` only -/

/-- The probabilities at batch `b` depend on the logits through their values at `b`. -/
theorem probK_local {a a' : Fin 32 → Fin 2048 → Fin 80 → EReal} {μ μ' v v' γ γ' β β' : Fin 80 → EReal} {b b' : Fin 32}
    (ha : ∀ n k, a b n k = a' b' n k) (hμ : ∀ k, μ k = μ' k) (hv : ∀ k, v k = v' k) (hγ : ∀ k, γ k = γ' k)
    (hβ : ∀ k, β k = β' k) (n : Fin 2048) (k : Fin 64) :
    probK a μ v γ β b n k = probK a' μ' v' γ' β' b' n k := by
  unfold probK prob expo logitMax logit
  simp only [ha, hμ, hv, hγ, hβ]

/-- The normalised aggregate at batch `b` depends on the probabilities and the features through their values at `b`. -/
theorem vladOut_local {p p' : Fin 32 → Fin 2048 → Fin 64 → EReal} {x x' : Fin 32 → Fin 2048 → Fin 512 → EReal}
    {c2 c2' : Fin 512 → Fin 64 → EReal} {b b' : Fin 32}
    (hp : ∀ n k, p b n k = p' b' n k) (hx : ∀ n d, x b n d = x' b' n d) (hc : ∀ d k, c2 d k = c2' d k)
    (d : Fin 512) (k : Fin 64) :
    vladOut p x c2 b d k = vladOut p' x' c2' b' d k := by
  unfold vladOut allNorm vladIntra colNorm vlad aSum
  simp only [hp, hx, hc]

/-! ## One point's block of the output -/

theorem hz3 : (![0, 0, 0] : Fin 3 → Nat) = fun _ => 0 := funext fun a => by fin_cases a <;> rfl
theorem hz2 : (![0, 0] : Fin 2 → Nat) = fun _ => 0 := funext fun a => by fin_cases a <;> rfl

/-- What a point leaves in the output's buffer, at feature `d` and cluster `k`: when the point's blocks are the arrays'
    entries of batch `b` (the features) and the whole arrays (the rest), it is the normalised aggregate of the arrays at `b`. -/
theorem point_eq (x0 : Vec Ideal S1x2048x512 .f32) (x1 : Vec Ideal S512x80 .f32) (x2 : Vec Ideal S1x512x64 .f32)
    (x3 x4 x5 x6 : Vec Ideal S1x80 .f32)
    (A0 : S32x2048x512.Idx → EReal) (A1 : S512x80.Idx → EReal) (A2 : S1x512x64.Idx → EReal)
    (A3 A4 A5 A6 : S1x80.Idx → EReal) (b : Fin 32)
    (h0 : ∀ (n : Fin 2048) (d : Fin 512), x0 (ix3 0 n d) = A0 (ix3 b n d))
    (h1 : ∀ (d : Fin 512) (k : Fin 80), x1 (ix2 d k) = A1 (ix2 d k))
    (h2 : ∀ (d : Fin 512) (k : Fin 64), x2 (ix3 0 d k) = A2 (ix3 0 d k))
    (h3 : ∀ k : Fin 80, x3 (ix2 0 k) = A3 (ix2 0 k)) (h4 : ∀ k : Fin 80, x4 (ix2 0 k) = A4 (ix2 0 k))
    (h5 : ∀ k : Fin 80, x5 (ix2 0 k) = A5 (ix2 0 k)) (h6 : ∀ k : Fin 80, x6 (ix2 0 k) = A6 (ix2 0 k))
    (j : S1x512x64.Idx) (d : Fin 512) (k : Fin 64) (hd : (j 1).val = d.val) (hk : (j 2).val = k.val) :
    out1_7 x0 x1 x2 x3 x4 x5 x6 j
      = vladOut (probK (assn (fn3 A0) (fn2 A1)) (row0 A3) (row0 A4) (row0 A5) (row0 A6)) (fn3 A0) (slab0 A2) b d k := by
  have hj : j = ix3 0 d k := by
    funext a
    match a with
    | ⟨0, _⟩ => exact Fin.ext (Nat.lt_one_iff.mp (j 0).isLt)
    | ⟨1, _⟩ => exact Fin.ext hd
    | ⟨2, _⟩ => exact Fin.ext hk
  subst hj
  unfold out1_7
  rw [View.canon_unit_zero hz3]
  simp only [View.ld_unit_zero (S := S1x2048x512) hz3, View.ld_unit_zero (S := S512x80) hz2,
    View.ld_unit_zero (S := S1x80) hz2, View.ld_unit_zero (S := S1x512x64) hz3]
  rw [R1Agg.agg_apply x0 _ _ x2 (fun k => R1Prob.asum_apply x0 x1 x3 x4 x5 x6 k) d k]
  refine vladOut_local (fun n k => ?_) (fun n d => ?_) (fun d k => ?_) d k
  · rw [R1Prob.probs_apply]
    refine probK_local (fun n k => ?_) (fun k => ?_) (fun k => ?_) (fun k => ?_) (fun k => ?_) n k
    · show (∑ d : Fin 512, x0 (ix3 0 n d) * x1 (ix2 d k)) = ∑ d : Fin 512, A0 (ix3 b n d) * A1 (ix2 d k)
      simp only [h0, h1]
    · exact h3 k
    · exact h4 k
    · exact h5 k
    · exact h6 k
  · exact h0 n d
  · exact h2 d k

variable (V : (c : Dev nD) → (b : Ref sig .tc) → Buf (Elt Ideal) ((c : Thread nD τ).loc b))

/-- The probabilities of the arrays the region finds: features, centres, and the mean, variance, scale and shift rows. -/
abbrev probs (c : Dev nD) : Fin 32 → Fin 2048 → Fin 64 → EReal :=
  probK (assn (fn3 (V c main_arg0)) (fn2 (V c main_arg1))) (row0 (V c main_v2)) (row0 (V c main_v6)) (row0 (V c main_v7)) (row0 (V c main_v8))

/-- The normalised aggregate of those probabilities, the features and the second centres. -/
def outArr (c : Dev nD) : FVec Ideal S32x512x64 .f32 := fun y =>
  vladOut (probs V c) (fn3 (V c main_arg0)) (slab0 (V c main_arg2))
    ⟨(y 0).val, (y 0).isLt⟩ ⟨(y 1).val, (y 1).isLt⟩ ⟨(y 2).val, (y 2).isLt⟩

/-! ## From the blocks to the array -/

/-- The index maps, decided over the 32 points: the features' and the output's blocks are the point's own batch, every
    other window is its whole array. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- The features' block at point `t` is batch `t` of the features. -/
theorem feat_blk (c : Dev nD) (t : Fin cfg1.N) (b : Fin 32) (hb : b.val = t.val) (n : Fin 2048) (d : Fin 512) :
    (iblk1 V c 0 t : Vec Ideal S1x2048x512 .f32) (ix3 0 n d) = (V c main_arg0 : S32x2048x512.Idx → EReal) (ix3 b n d) := by
  obtain ⟨e0, e1, e2, -⟩ := idx_facts t
  show V c main_arg0 (((cfg1.win 0).blk t).view.emb (ix3 0 n d)) = V c main_arg0 (ix3 b n d)
  refine congrArg _ ?_
  funext a; apply Fin.ext
  match a with
  | ⟨0, _⟩ => show win1_0.index t (0 : Fin 3) * 1 + 1 * (0 : Fin 1).val = b.val; simp only [Fin.val_zero]; omega
  | ⟨1, _⟩ => show win1_0.index t (1 : Fin 3) * 2048 + 1 * n.val = n.val; omega
  | ⟨2, _⟩ => show win1_0.index t (2 : Fin 3) * 512 + 1 * d.val = d.val; omega

/-- The centres' block is the whole array at every point. -/
theorem cent_blk (c : Dev nD) (t : Fin cfg1.N) (y : S512x80.Idx) :
    (iblk1 V c 1 t : Vec Ideal S512x80 .f32) y = (V c main_arg1 : S512x80.Idx → EReal) y := by
  obtain ⟨-, -, -, e0, e1, -⟩ := idx_facts t
  show V c main_arg1 (((cfg1.win 1).blk t).view.emb y) = V c main_arg1 y
  refine congrArg _ ?_
  funext a; apply Fin.ext
  match a with
  | ⟨0, _⟩ => show win1_1.index t (0 : Fin 2) * 512 + 1 * (y 0).val = (y 0).val; omega
  | ⟨1, _⟩ => show win1_1.index t (1 : Fin 2) * 80 + 1 * (y 1).val = (y 1).val; omega

/-- The second centres' block is the whole array at every point. -/
theorem cent2_blk (c : Dev nD) (t : Fin cfg1.N) (y : S1x512x64.Idx) :
    (iblk1 V c 2 t : Vec Ideal S1x512x64 .f32) y = (V c main_arg2 : S1x512x64.Idx → EReal) y := by
  obtain ⟨-, -, -, -, -, e0, e1, e2, -⟩ := idx_facts t
  show V c main_arg2 (((cfg1.win 2).blk t).view.emb y) = V c main_arg2 y
  refine congrArg _ ?_
  funext a; apply Fin.ext
  match a with
  | ⟨0, _⟩ => show win1_2.index t (0 : Fin 3) * 1 + 1 * (y 0).val = (y 0).val; omega
  | ⟨1, _⟩ => show win1_2.index t (1 : Fin 3) * 512 + 1 * (y 1).val = (y 1).val; omega
  | ⟨2, _⟩ => show win1_2.index t (2 : Fin 3) * 64 + 1 * (y 2).val = (y 2).val; omega

/-- The mean row's block is the whole row at every point. -/
theorem mean_blk (c : Dev nD) (t : Fin cfg1.N) (y : S1x80.Idx) :
    (iblk1 V c 3 t : Vec Ideal S1x80 .f32) y = (V c main_v2 : S1x80.Idx → EReal) y := by
  obtain ⟨-, -, -, -, -, -, -, -, e0, e1, -⟩ := idx_facts t
  show V c main_v2 (((cfg1.win 3).blk t).view.emb y) = V c main_v2 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 80 + 1 * (y 1).val = (y 1).val; omega

/-- The variance row's block is the whole row at every point. -/
theorem var_blk (c : Dev nD) (t : Fin cfg1.N) (y : S1x80.Idx) :
    (iblk1 V c 4 t : Vec Ideal S1x80 .f32) y = (V c main_v6 : S1x80.Idx → EReal) y := by
  obtain ⟨-, -, -, -, -, -, -, -, -, -, e0, e1, -⟩ := idx_facts t
  show V c main_v6 (((cfg1.win 4).blk t).view.emb y) = V c main_v6 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 80 + 1 * (y 1).val = (y 1).val; omega

/-- The scale row's block is the whole row at every point. -/
theorem scale_blk (c : Dev nD) (t : Fin cfg1.N) (y : S1x80.Idx) :
    (iblk1 V c 5 t : Vec Ideal S1x80 .f32) y = (V c main_v7 : S1x80.Idx → EReal) y := by
  obtain ⟨-, -, -, -, -, -, -, -, -, -, -, -, e0, e1, -⟩ := idx_facts t
  show V c main_v7 (((cfg1.win 5).blk t).view.emb y) = V c main_v7 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 80 + 1 * (y 1).val = (y 1).val; omega

/-- The shift row's block is the whole row at every point. -/
theorem shift_blk (c : Dev nD) (t : Fin cfg1.N) (y : S1x80.Idx) :
    (iblk1 V c 6 t : Vec Ideal S1x80 .f32) y = (V c main_v8 : S1x80.Idx → EReal) y := by
  obtain ⟨-, -, -, -, -, -, -, -, -, -, -, -, -, -, e0, e1, -⟩ := idx_facts t
  show V c main_v8 (((cfg1.win 6).blk t).view.emb y) = V c main_v8 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 80 + 1 * (y 1).val = (y 1).val; omega

/-- What point `t` writes back is block `t` of the normalised aggregate. -/
theorem flushed_eq (c : Dev nD) (t : Fin cfg1.N) :
    (dat1 V c).flushed 7 t = ((cfg1.win 7).blk t).view.read (Elt Ideal) (outArr V c) := by
  show (cfg1.win 7).cut (grid1.coords t) ((dat1 V c).after 7 t) = _
  rw [after1_7]
  obtain ⟨-, -, -, -, -, -, -, -, -, -, -, -, -, -, -, -, e0, e1, e2⟩ := idx_facts t
  refine funext fun (j : S1x512x64.Idx) => ?_
  have hj0 : (j 0).val < 1 := (j 0).isLt
  have hb : ((((cfg1.win 7).blk t).view.emb j) 0).val = t.val := by
    show win1_7.index t (0 : Fin 3) * 1 + 1 * (j 0).val = t.val
    omega
  have hd : (j 1).val = ((((cfg1.win 7).blk t).view.emb j) 1).val := by
    show (j 1).val = win1_7.index t (1 : Fin 3) * 512 + 1 * (j 1).val
    omega
  have hk : (j 2).val = ((((cfg1.win 7).blk t).view.emb j) 2).val := by
    show (j 2).val = win1_7.index t (2 : Fin 3) * 64 + 1 * (j 2).val
    omega
  show out1_7 (iblk1 V c 0 t) (iblk1 V c 1 t) (iblk1 V c 2 t) (iblk1 V c 3 t) (iblk1 V c 4 t) (iblk1 V c 5 t) (iblk1 V c 6 t) j
    = outArr V c (((cfg1.win 7).blk t).view.emb j)
  exact point_eq (iblk1 V c 0 t) (iblk1 V c 1 t) (iblk1 V c 2 t) (iblk1 V c 3 t) (iblk1 V c 4 t) (iblk1 V c 5 t) (iblk1 V c 6 t)
    (V c main_arg0) (V c main_arg1) (V c main_arg2) (V c main_v2) (V c main_v6) (V c main_v7) (V c main_v8)
    ⟨_, ((((cfg1.win 7).blk t).view.emb j) 0).isLt⟩
    (fun n d => feat_blk V c t _ hb n d) (fun d k => cent_blk V c t _) (fun d k => cent2_blk V c t _)
    (fun k => mean_blk V c t _) (fun k => var_blk V c t _) (fun k => scale_blk V c t _) (fun k => shift_blk V c t _)
    j ⟨_, ((((cfg1.win 7).blk t).view.emb j) 1).isLt⟩ ⟨_, ((((cfg1.win 7).blk t).view.emb j) 2).isLt⟩ hd hk

/-- An index of the output is in point `t`'s block iff each coordinate is in the block's range on its axis. -/
theorem mem_blk (t : Fin cfg1.N) (i : S32x512x64.Idx) :
    i ∈ ((cfg1.win 7).blk t).view.set ↔ ∀ a : Fin 3, win1_7.index t a * S1x512x64.size a ≤ (i a).val
      ∧ (i a).val < win1_7.index t a * S1x512x64.size a + S1x512x64.size a := by
  show i ∈ ((View.whole main_v9).slice (win1_7.rect t)).set ↔ _
  rw [View.set_slice_whole, Rect.mem_set_unit]
  exact Iff.rfl

/-- Every index of the output is in the block of the point that is its batch. -/
theorem cover (i : S32x512x64.Idx) :
    ∃ t : Fin cfg1.N, (cfg1.win 7).flush t = true ∧ i ∈ ((cfg1.win 7).blk t).view.set := by
  have h0 : (i 0).val < 32 := (i 0).isLt
  have h1 : (i 1).val < 512 := (i 1).isLt
  have h2 : (i 2).val < 64 := (i 2).isLt
  obtain ⟨t, ht⟩ : ∃ t : Fin cfg1.N, t.val = (i 0).val :=
    ⟨⟨(i 0).val, by rw [show cfg1.N = 32 from N_1]; exact h0⟩, rfl⟩
  obtain ⟨-, -, -, -, -, -, -, -, -, -, -, -, -, -, -, -, e0, e1, e2⟩ := idx_facts t
  refine ⟨t, flush1_7 t, ?_⟩
  rw [mem_blk]
  intro a
  match a with
  | ⟨0, _⟩ =>
    show win1_7.index t (0 : Fin 3) * 1 ≤ (i 0).val ∧ (i 0).val < win1_7.index t (0 : Fin 3) * 1 + 1
    omega
  | ⟨1, _⟩ =>
    show win1_7.index t (1 : Fin 3) * 512 ≤ (i 1).val ∧ (i 1).val < win1_7.index t (1 : Fin 3) * 512 + 512
    omega
  | ⟨2, _⟩ =>
    show win1_7.index t (2 : Fin 3) * 64 ≤ (i 2).val ∧ (i 2).val < win1_7.index t (2 : Fin 3) * 64 + 64
    omega

/-- After the region the output array holds the normalised aggregate, block by block. -/
theorem out_final (c : Dev nD) : (dat1 V c).arrAt 7 cfg1.N = outArr V c :=
  (dat1 V c).arrAt_eq_of_cover 7 (outArr V c) (fun t _ => flushed_eq V c t) cover

end Cert.KernelIdeal.Region1

end
-- ==== Proof.KGlue.lean ====
/-
  The idealized kernel's result as a function of its arguments: the last boundary's contents at the result array, read
  back through the final reshape, region 1's write-backs, the host's mean and variance, and region 0's accumulated sums.
-/
import proofs.«143529_j19069654794906_1_alg».proof.Proof.Region0
import proofs.«143529_j19069654794906_1_alg».proof.Proof.Region1
import Idealize.ShloMosaic.Lib.IdealHost
import Idealize.ShloMosaic.Lib.ValueLayout

noncomputable section

namespace Cert.KernelIdeal.Glue

open Idealize.ShloMosaic Idealize.ShloMosaic.TcCoe Idealize.SL.Sem Idealize.ShloMosaic.ValueIdx
open Cert.KernelIdeal Cert.KernelIdeal.Gen Cert.Vlad

variable (m : (ℓ : Loc nD τ sig) → Buf (Elt Ideal) ℓ) (ρ : Dev nD → PrngReg)

/-- The logits of the launch memory's features and centres. -/
abbrev logits (c : Dev nD) : Fin 32 → Fin 2048 → Fin 80 → EReal :=
  assn (fn3 (m ((c : Thread nD τ).loc main_arg0))) (fn2 (m ((c : Thread nD τ).loc main_arg1)))

/-- The kernel's result of the launch memory's arguments: the normalised aggregate under the mean and variance taken from
    the column sums and sums of squares, laid out as 32 rows. -/
def value (c : Dev nD) : FVec Ideal S32x32768 .f32 :=
  flat (vladOut (probK (logits m c) (meanK (logits m c)) (varK (logits m c))
      (fn1 (m ((c : Thread nD τ).loc main_arg3))) (fn1 (m ((c : Thread nD τ).loc main_arg4))))
    (fn3 (m ((c : Thread nD τ).loc main_arg0))) (slab0 (m ((c : Thread nD τ).loc main_arg2))))

/-! ## The fold through the host operations and the two regions, buffer by buffer -/

/-- The result array at the last boundary is region 1's output array, reshaped. -/
theorem W4_v10 (c : Dev nD) : (W4 (F := Ideal) m ρ c (Proc.devRef .tc main_v10) : FVec Ideal S32x32768 .f32)
    = shapeCast S32x32768 (W3 (F := Ideal) m ρ c (Proc.devRef .tc main_v9) : FVec Ideal S32x512x64 .f32)
        shapeCasts_S32x512x64_S32x32768 := by
  show StableHlo.after hostOps2 _ (Proc.devRef .tc main_v10) = _
  after_results
  rfl

/-- Region 1 leaves its output array at the normalised aggregate of the contents it entered with. -/
theorem W3_v9 (c : Dev nD) : W3 (F := Ideal) m ρ c (Proc.devRef .tc main_v9) = Region1.outArr (V2 m ρ) c :=
  (W3_arr m ρ c 7).trans (Region1.out_final (V2 m ρ) c)

/-- The features enter region 1 as launched. -/
theorem V2_arg0 (c : Dev nD) : V2 (F := Ideal) m ρ c main_arg0 = m ((c : Thread nD τ).loc main_arg0) := by
  show StableHlo.after hostOps1 _ (Proc.devRef .tc main_arg0) = _
  after_results
  exact (W1_arr m ρ c 0).trans (((dat0 (V0 m ρ) c).arrAt_in 0 rfl _).trans (A_eq0 (V0 m ρ) c 0))

/-- The centres enter region 1 as launched. -/
theorem V2_arg1 (c : Dev nD) : V2 (F := Ideal) m ρ c main_arg1 = m ((c : Thread nD τ).loc main_arg1) := by
  show StableHlo.after hostOps1 _ (Proc.devRef .tc main_arg1) = _
  after_results
  exact (W1_arr m ρ c 1).trans (((dat0 (V0 m ρ) c).arrAt_in 1 rfl _).trans (A_eq0 (V0 m ρ) c 1))

/-- The second centres enter region 1 as launched. -/
theorem V2_arg2 (c : Dev nD) : V2 (F := Ideal) m ρ c main_arg2 = m ((c : Thread nD τ).loc main_arg2) := by
  show StableHlo.after hostOps1 _ (Proc.devRef .tc main_arg2) = _
  after_results
  exact W1_of_ne m ρ c main_arg2 (by decide)

/-- Region 0 leaves the column sums of the launch memory's logits in its first accumulated array. -/
theorem W1_v0_0 (c : Dev nD) : W1 (F := Ideal) m ρ c (Proc.devRef .tc main_v0_0) = Region0.sumRow (V0 m ρ) c :=
  (W1_arr m ρ c 2).trans (Region0.sum_final (V0 m ρ) c)

/-- And the column sums of squares in its second. -/
theorem W1_v0_1 (c : Dev nD) : W1 (F := Ideal) m ρ c (Proc.devRef .tc main_v0_1) = Region0.sumsqRow (V0 m ρ) c :=
  (W1_arr m ρ c 3).trans (Region0.sumsq_final (V0 m ρ) c)

/-- A row divided, entry by entry, by the row count. -/
def overRows (s : FVec Ideal S1x80 .f32) : FVec Ideal S1x80 .f32 :=
  Host.divf s (broadcastInDim S1x80 ![] bcast_S_S1x80 (constant (F := Ideal) S_ .f32 0x47800000#32))

/-- The mean row region 1 enters with: the column sums over the row count. -/
theorem V2_v2 (c : Dev nD) : (V2 (F := Ideal) m ρ c main_v2 : FVec Ideal S1x80 .f32)
    = overRows (Region0.sumRow (V0 m ρ) c) := by
  show StableHlo.after hostOps1 _ (Proc.devRef .tc main_v2) = _
  after_results
  rw [W1_v0_0]
  rfl

/-- The variance row region 1 enters with: the mean square less the squared mean. -/
theorem V2_v6 (c : Dev nD) : (V2 (F := Ideal) m ρ c main_v6 : FVec Ideal S1x80 .f32)
    = subf (overRows (Region0.sumsqRow (V0 m ρ) c))
        (mulf (overRows (Region0.sumRow (V0 m ρ) c)) (overRows (Region0.sumRow (V0 m ρ) c))) := by
  show StableHlo.after hostOps1 _ (Proc.devRef .tc main_v6) = _
  after_results
  rw [W1_v0_0, W1_v0_1]
  rfl

/-- The scale row region 1 enters with: the launch memory's scale as one row. -/
theorem V2_v7 (c : Dev nD) : (V2 (F := Ideal) m ρ c main_v7 : FVec Ideal S1x80 .f32)
    = shapeCast S1x80 (m ((c : Thread nD τ).loc main_arg3) : FVec Ideal S80 .f32) shapeCasts_S80_S1x80 := by
  show StableHlo.after hostOps1 _ (Proc.devRef .tc main_v7) = _
  after_results
  rw [W1_of_ne m ρ c main_arg3 (by decide)]
  rfl

/-- The shift row region 1 enters with: the launch memory's shift as one row. -/
theorem V2_v8 (c : Dev nD) : (V2 (F := Ideal) m ρ c main_v8 : FVec Ideal S1x80 .f32)
    = shapeCast S1x80 (m ((c : Thread nD τ).loc main_arg4) : FVec Ideal S80 .f32) shapeCasts_S80_S1x80 := by
  show StableHlo.after hostOps1 _ (Proc.devRef .tc main_v8) = _
  after_results
  rw [W1_of_ne m ρ c main_arg4 (by decide)]
  rfl

/-! ## The host operations' rows read entry by entry -/

/-- Dividing a row by the row count divides each entry by it. -/
theorem overRows_apply (s : FVec Ideal S1x80 .f32) (j : S1x80.Idx) : overRows s j = Ideal.div (s j) rows := by
  show Ideal.div (s j) (broadcastInDim S1x80 ![] bcast_S_S1x80 (constant (F := Ideal) S_ .f32 0x47800000#32) j) = _
  rw [broadcastInDim_scalar_apply]
  rfl

/-- The column sums over the row count are the means. -/
theorem row0_mean (c : Dev nD) : row0 (overRows (Region0.sumRow (V0 m ρ) c)) = meanK (logits m c) := by
  funext k
  show overRows (Region0.sumRow (V0 m ρ) c) (ix2 0 k) = _
  rw [overRows_apply]
  rfl

/-- The mean squares less the squared means are the variances. -/
theorem row0_var (c : Dev nD) :
    row0 (subf (overRows (Region0.sumsqRow (V0 m ρ) c))
        (mulf (overRows (Region0.sumRow (V0 m ρ) c)) (overRows (Region0.sumRow (V0 m ρ) c)))) = varK (logits m c) := by
  funext k
  show overRows (Region0.sumsqRow (V0 m ρ) c) (ix2 0 k)
      - overRows (Region0.sumRow (V0 m ρ) c) (ix2 0 k) * overRows (Region0.sumRow (V0 m ρ) c) (ix2 0 k) = _
  rw [overRows_apply, overRows_apply]
  rfl

/-- A vector laid out as one row reads, along that row, the vector. -/
theorem row0_cast (x : FVec Ideal S80 .f32) : row0 (shapeCast S1x80 x shapeCasts_S80_S1x80) = fn1 x := by
  funext k
  exact shapeCast_a_1a_apply x shapeCasts_S80_S1x80 0 k

/-! ## Assembly -/

/-- Region 1's output array with everything it entered with read back to the launch memory. -/
theorem outArr_eq (c : Dev nD) : Region1.outArr (V2 m ρ) c = fun y =>
    vladOut (probK (logits m c) (meanK (logits m c)) (varK (logits m c))
        (fn1 (m ((c : Thread nD τ).loc main_arg3))) (fn1 (m ((c : Thread nD τ).loc main_arg4))))
      (fn3 (m ((c : Thread nD τ).loc main_arg0))) (slab0 (m ((c : Thread nD τ).loc main_arg2)))
      ⟨(y 0).val, (y 0).isLt⟩ ⟨(y 1).val, (y 1).isLt⟩ ⟨(y 2).val, (y 2).isLt⟩ := by
  unfold Region1.outArr Region1.probs
  rw [V2_arg0, V2_arg1, V2_arg2, V2_v2, V2_v6, V2_v7, V2_v8, row0_mean, row0_var, row0_cast, row0_cast]

/-- The last boundary's contents at the result array are that value. -/
theorem W4_result (c : Dev nD) : W4 (F := Ideal) m ρ c (Proc.devRef .tc main_v10) = value m c := by
  refine (W4_v10 m ρ c).trans ?_
  rw [W3_v9, outArr_eq]
  funext i
  refine (shapeCast_apply _ shapeCasts_S32x512x64_S32x32768 i
    (ix3 ⟨(i 0).val, idx2_lt0 i⟩ ⟨(i 1).val / 64, by have := idx2_lt1 i; omega⟩
      ⟨(i 1).val % 64, Nat.mod_lt _ (by decide)⟩) ?_).trans rfl
  rw [Shape.rowMajor_val_three, Shape.rowMajor_val_two]
  show ((i 0).val * 512 + (i 1).val / 64) * 64 + (i 1).val % 64 = (i 0).val * 32768 + (i 1).val
  omega

end Cert.KernelIdeal.Glue

end
-- ==== Proof.RefTerm.lean ====
/-
  The reference's result as composed terms of its operations, in short stretches that follow the mathematics: the logits
  (the features laid out as 65536 rows, times the cluster centres); the column mean and variance of a 65536 × 80 table;
  the normalised, scaled and shifted table; its row-wise softmax; the first 64 columns laid out per batch; the residual
  aggregate; its column normalisation; the batch normalisation of its flattened rows.
-/
import proofs.«143529_j19069654794906_1_alg».proof.ReferenceIdeal

noncomputable section

namespace Cert.ReferenceIdeal.Term

open Idealize.ShloMosaic Cert.ReferenceIdeal

variable {F : FTy → Type} [FloatOps F] [Facts]
open Facts₀ Facts

/-- The features as 65536 rows of 512, times the 512 × 80 centres. -/
def logitsT (x : FVec F S32x2048x512 .f32) (cl : FVec F S512x80 .f32) : FVec F S65536x80 .f32 :=
  Host.dotGeneral dot_S65536x512_S512x80_S65536x80_1_0_0_1_n_n none (shapeCast S65536x512 x shapeCasts_S32x2048x512_S65536x512) cl

/-- The column sum from zero. -/
def colSumT (A : FVec F S65536x80 .f32) : FVec F S80 .f32 :=
  Host.reduceAdd A (constant S_ .f32 0x00000000#32) reducesTo_S65536x80_S80_d0 h_S_

/-- The column mean: the column sum divided by 65536. -/
def meanT (A : FVec F S65536x80 .f32) : FVec F S80 .f32 :=
  Host.divf (colSumT A) (broadcastInDim S80 ![] bcast_S_S80 (constant S_ .f32 0x47800000#32))

/-- The table centred by its column mean (taken once more, as a row). -/
def centredT (A : FVec F S65536x80 .f32) : FVec F S65536x80 .f32 :=
  subf A (broadcastInDim S65536x80 ![0, 1] bcast_S1x80_S65536x80_0_1
    (Host.divf (broadcastInDim S1x80 ![1] bcast_S80_S1x80_1 (colSumT A))
      (broadcastInDim S1x80 ![] bcast_S_S1x80 (constant S_ .f32 0x47800000#32))))

/-- 65536 less the zero degrees of freedom. -/
def dofT : FVec F S_ .f32 := subf (constant S_ .f32 0x47800000#32) (sitofp .f32 (constantI S_ 32 0#32))

/-- The column variance: the centred squares' column sum over that divisor, kept where the divisor is positive. -/
def varT (A : FVec F S65536x80 .f32) : FVec F S80 .f32 :=
  select (broadcastInDim S80 ![] bcast_S_S80 (cmpf .ogt (dofT (F := F)) (constant S_ .f32 0x00000000#32)))
    (Host.divf (colSumT (mulf (centredT A) (centredT A))) (broadcastInDim S80 ![] bcast_S_S80 (dofT (F := F))))
    (broadcastInDim S80 ![] bcast_S_S80 (id (constant S_ .f32 0x7FC00000#32)))

/-- A length-80 row spread over the 65536 rows. -/
def spreadT (r : FVec F S80 .f32) : FVec F S65536x80 .f32 :=
  broadcastInDim S65536x80 ![0, 1] bcast_S1x80_S65536x80_0_1 (broadcastInDim S1x80 ![1] bcast_S80_S1x80_1 r)

/-- The normalised, scaled and shifted table. -/
def normT (A : FVec F S65536x80 .f32) (mu va g be : FVec F S80 .f32) : FVec F S65536x80 .f32 :=
  addf (mulf (mulf (subf A (spreadT mu))
      (spreadT (Host.rsqrt (addf va (broadcastInDim S80 ![] bcast_S_S80 (constant S_ .f32 0x3727C5AC#32))))))
    (spreadT g)) (spreadT be)

/-- A length-65536 column spread over the 80 lanes. -/
def lanesT (r : FVec F S65536 .f32) : FVec F S65536x80 .f32 :=
  broadcastInDim S65536x80 ![0, 1] bcast_S65536x1_S65536x80_0_1 (broadcastInDim S65536x1 ![0] bcast_S65536_S65536x1_0 r)

/-- The exponentials of a table less its row maxima. -/
def expT (Z : FVec F S65536x80 .f32) : FVec F S65536x80 .f32 :=
  Host.exp (subf Z (lanesT (maximumf (broadcastInDim S65536 ![] bcast_S_S65536 (constant S_ .f32 0xFF800000#32))
    (Host.reduce FloatOps.maximumf Z (constant S_ .f32 0xFF800000#32) reducesTo_S65536x80_S65536_d1 h_S_))))

/-- The row-wise softmax. -/
def softT (Z : FVec F S65536x80 .f32) : FVec F S65536x80 .f32 :=
  Host.divf (expT Z) (lanesT (Host.reduceAdd (expT Z) (constant S_ .f32 0x00000000#32) reducesTo_S65536x80_S65536_d1 h_S_))

/-- Its first 64 columns, laid out per batch. -/
def probT (P : FVec F S65536x80 .f32) : FVec F S32x2048x64 .f32 :=
  shapeCast S32x2048x64 (extractStridedSlice S65536x64 ![0, 0] P slices_S65536x80_S65536x64_0_0) shapeCasts_S65536x64_S32x2048x64

/-- A `32 × 64` table spread over the 512 features. -/
def featsT (r : FVec F S32x64 .f32) : FVec F S32x512x64 .f32 :=
  broadcastInDim S32x512x64 ![0, 1, 2] bcast_S32x1x64_S32x512x64_0_1_2 (broadcastInDim S32x1x64 ![0, 2] bcast_S32x64_S32x1x64_0_2 r)

/-- The residual aggregate. -/
def vladT (x : FVec F S32x2048x512 .f32) (P : FVec F S32x2048x64 .f32) (c2 : FVec F S1x512x64 .f32) : FVec F S32x512x64 .f32 :=
  subf (Host.dotGeneral dot_S32x2048x512_S32x2048x64_S32x512x64_1_1_2_2_0_0 none x P)
    (mulf (featsT (Host.reduceAdd P (constant S_ .f32 0x00000000#32) reducesTo_S32x2048x64_S32x64_d1 h_S_))
      (broadcastInDim S32x512x64 ![0, 1, 2] bcast_S1x512x64_S32x512x64_0_1_2 c2))

/-- Each column divided by its norm over the features, at least ε. -/
def intraT (W : FVec F S32x512x64 .f32) : FVec F S32x512x64 .f32 :=
  Host.divf W (broadcastInDim S32x512x64 ![0, 1, 2] bcast_S32x1x64_S32x512x64_0_1_2
    (maximumf (Host.sqrt (broadcastInDim S32x1x64 ![0, 2] bcast_S32x64_S32x1x64_0_2
        (Host.reduceAdd (mulf W W) (constant S_ .f32 0x00000000#32) reducesTo_S32x512x64_S32x64_d1 h_S_)))
      (broadcastInDim S32x1x64 ![] bcast_S_S32x1x64 (constant S_ .f32 0x2B8CBCCC#32))))

/-- Each flattened row divided by its norm, at least ε. -/
def outT (W : FVec F S32x32768 .f32) : FVec F S32x32768 .f32 :=
  Host.divf W (broadcastInDim S32x32768 ![0, 1] bcast_S32x1_S32x32768_0_1
    (maximumf (Host.sqrt (broadcastInDim S32x1 ![0] bcast_S32_S32x1_0
        (Host.reduceAdd (mulf W W) (constant S_ .f32 0x00000000#32) reducesTo_S32x32768_S32_d1 h_S_)))
      (broadcastInDim S32x1 ![] bcast_S_S32x1 (constant S_ .f32 0x2B8CBCCC#32))))

/-- The aggregation of a probability table: residual aggregate, column normalisation, flattening, batch normalisation. -/
def aggT (x : FVec F S32x2048x512 .f32) (P : FVec F S32x2048x64 .f32) (c2 : FVec F S1x512x64 .f32) : FVec F S32x32768 .f32 :=
  outT (shapeCast S32x32768 (intraT (vladT x P c2)) shapeCasts_S32x512x64_S32x32768)

/-- The reference's result as a function of its five arguments. -/
def result (x : FVec F S32x2048x512 .f32) (cl : FVec F S512x80 .f32) (c2 : FVec F S1x512x64 .f32) (g be : FVec F S80 .f32) :
    FVec F S32x32768 .f32 :=
  aggT x (probT (softT (normT (logitsT x cl) (meanT (logitsT x cl)) (varT (logitsT x cl)) g be))) c2

end Cert.ReferenceIdeal.Term

end
-- ==== Proof.RefRun.lean ====
/-
  The reference's run: its program is a straight line of host operations (the four helper functions' bodies in place at
  their calls), so every weakly fair execution terminates with the result array at the operations' composed term of the
  arguments and the arguments unchanged.
-/
import proofs.«143529_j19069654794906_1_alg».proof.Proof.RefTerm
import Idealize.ShloMosaic.Lib.StableHlo.Run
import Idealize.ShloMosaic.Lib.Tactic

noncomputable section

namespace Cert.ReferenceIdeal.RefRun

open Idealize.ShloMosaic Idealize.ShloMosaic.TcCoe Idealize.SL.Sem Idealize.ShloMosaic.StableHlo
open Cert.ReferenceIdeal

variable {F : FTy → Type} [FloatOps F] [Facts]
open Facts₀ Facts

/-- The program's 91 host operations in order: the eight that open it; the column variance's twenty-one with the
    selection's three inside them; the normalisation and the row-wise softmax; the slice and its layout per batch; the
    residual aggregate; the column norm's five; the column normalisation and the flattening; the row norm's five; the
    batch normalisation. -/
abbrev ops : List (HloOp τ sig (Elt F)) :=
  [ StableHlo.reshape main_arg0 main_v0 rfl shapeCasts_S32x2048x512_S65536x512,
    StableHlo.binary main_v0 main_arg1 main_v1 ((fun l r => Host.dotGeneral dot_S65536x512_S512x80_S65536x80_1_0_0_1_n_n none l r) : (⟨S65536x512, .f32⟩ : BufTy).Contents (Elt F) → (⟨S512x80, .f32⟩ : BufTy).Contents (Elt F) → (⟨S65536x80, .f32⟩ : BufTy).Contents (Elt F)),
    StableHlo.nullary main_cst (constant S_ .f32 0x00000000#32),
    StableHlo.binary main_v1 main_cst main_v2 ((fun x v => Host.reduceAdd x v reducesTo_S65536x80_S80_d0 h_S_) : (⟨S65536x80, .f32⟩ : BufTy).Contents (Elt F) → (⟨S_, .f32⟩ : BufTy).Contents (Elt F) → (⟨S80, .f32⟩ : BufTy).Contents (Elt F)),
    StableHlo.nullary main_cst_0 (constant S_ .f32 0x47800000#32),
    StableHlo.unary main_cst_0 main_v3 (broadcastInDim S80 ![] bcast_S_S80 : (⟨S_, .f32⟩ : BufTy).Contents (Elt F) → (⟨S80, .f32⟩ : BufTy).Contents (Elt F)),
    StableHlo.binary main_v2 main_v3 main_v4 (Host.divf : (⟨S80, .f32⟩ : BufTy).Contents (Elt F) → (⟨S80, .f32⟩ : BufTy).Contents (Elt F) → (⟨S80, .f32⟩ : BufTy).Contents (Elt F)),
    StableHlo.nullary main_c (constantI S_ 32 0#32),
    StableHlo.TRef.nullary main_call0.cst (constant S_ .f32 0x00000000#32),
    StableHlo.TRef.binary (.of main_v1) main_call0.cst main_call0.v0 (fun x v => Host.reduceAdd x v reducesTo_S65536x80_S80_d0 h_S_),
    StableHlo.TRef.unary main_call0.v0 main_call0.v1 (broadcastInDim S1x80 ![1] bcast_S80_S1x80_1),
    StableHlo.TRef.nullary main_call0.cst_0 (constant S_ .f32 0x47800000#32),
    StableHlo.TRef.unary main_call0.cst_0 main_call0.v2 (broadcastInDim S1x80 ![] bcast_S_S1x80),
    StableHlo.TRef.binary main_call0.v1 main_call0.v2 main_call0.v3 Host.divf,
    StableHlo.TRef.unary main_call0.v3 main_call0.v4 (broadcastInDim S65536x80 ![0, 1] bcast_S1x80_S65536x80_0_1),
    StableHlo.TRef.binary (.of main_v1) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x80_S80_d0 h_S_),
    StableHlo.TRef.unary main_call0.v8 main_call0.v10 (broadcastInDim S80 ![] bcast_S_S80),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S80 ![] bcast_S_S80),
    StableHlo.TRef.ternary main_call0.v12 main_call0.v11 main_call0.call0.v1 main_call0.call0.v2 (fun p a b => select (broadcastInDim S80 ![] bcast_S_S80 p) a b),
    StableHlo.unary main_v4 main_v6 (broadcastInDim S1x80 ![1] bcast_S80_S1x80_1 : (⟨S80, .f32⟩ : BufTy).Contents (Elt F) → (⟨S1x80, .f32⟩ : BufTy).Contents (Elt F)),
    StableHlo.unary main_v6 main_v7 (broadcastInDim S65536x80 ![0, 1] bcast_S1x80_S65536x80_0_1 : (⟨S1x80, .f32⟩ : BufTy).Contents (Elt F) → (⟨S65536x80, .f32⟩ : BufTy).Contents (Elt F)),
    StableHlo.binary main_v1 main_v7 main_v8 (subf : (⟨S65536x80, .f32⟩ : BufTy).Contents (Elt F) → (⟨S65536x80, .f32⟩ : BufTy).Contents (Elt F) → (⟨S65536x80, .f32⟩ : BufTy).Contents (Elt F)),
    StableHlo.nullary main_cst_1 (constant S_ .f32 0x3727C5AC#32),
    StableHlo.unary main_cst_1 main_v9 (broadcastInDim S80 ![] bcast_S_S80 : (⟨S_, .f32⟩ : BufTy).Contents (Elt F) → (⟨S80, .f32⟩ : BufTy).Contents (Elt F)),
    StableHlo.binary main_v5 main_v9 main_v10 (addf : (⟨S80, .f32⟩ : BufTy).Contents (Elt F) → (⟨S80, .f32⟩ : BufTy).Contents (Elt F) → (⟨S80, .f32⟩ : BufTy).Contents (Elt F)),
    StableHlo.unary main_v10 main_v11 (Host.rsqrt : (⟨S80, .f32⟩ : BufTy).Contents (Elt F) → (⟨S80, .f32⟩ : BufTy).Contents (Elt F)),
    StableHlo.unary main_v11 main_v12 (broadcastInDim S1x80 ![1] bcast_S80_S1x80_1 : (⟨S80, .f32⟩ : BufTy).Contents (Elt F) → (⟨S1x80, .f32⟩ : BufTy).Contents (Elt F)),
    StableHlo.unary main_v12 main_v13 (broadcastInDim S65536x80 ![0, 1] bcast_S1x80_S65536x80_0_1 : (⟨S1x80, .f32⟩ : BufTy).Contents (Elt F) → (⟨S65536x80, .f32⟩ : BufTy).Contents (Elt F)),
    StableHlo.binary main_v8 main_v13 main_v14 (mulf : (⟨S65536x80, .f32⟩ : BufTy).Contents (Elt F) → (⟨S65536x80, .f32⟩ : BufTy).Contents (Elt F) → (⟨S65536x80, .f32⟩ : BufTy).Contents (Elt F)),
    StableHlo.unary main_arg3 main_v15 (broadcastInDim S1x80 ![1] bcast_S80_S1x80_1 : (⟨S80, .f32⟩ : BufTy).Contents (Elt F) → (⟨S1x80, .f32⟩ : BufTy).Contents (Elt F)),
    StableHlo.unary main_v15 main_v16 (broadcastInDim S65536x80 ![0, 1] bcast_S1x80_S65536x80_0_1 : (⟨S1x80, .f32⟩ : BufTy).Contents (Elt F) → (⟨S65536x80, .f32⟩ : BufTy).Contents (Elt F)),
    StableHlo.binary main_v14 main_v16 main_v17 (mulf : (⟨S65536x80, .f32⟩ : BufTy).Contents (Elt F) → (⟨S65536x80, .f32⟩ : BufTy).Contents (Elt F) → (⟨S65536x80, .f32⟩ : BufTy).Contents (Elt F)),
    StableHlo.unary main_arg4 main_v18 (broadcastInDim S1x80 ![1] bcast_S80_S1x80_1 : (⟨S80, .f32⟩ : BufTy).Contents (Elt F) → (⟨S1x80, .f32⟩ : BufTy).Contents (Elt F)),
    StableHlo.unary main_v18 main_v19 (broadcastInDim S65536x80 ![0, 1] bcast_S1x80_S65536x80_0_1 : (⟨S1x80, .f32⟩ : BufTy).Contents (Elt F) → (⟨S65536x80, .f32⟩ : BufTy).Contents (Elt F)),
    StableHlo.binary main_v17 main_v19 main_v20 (addf : (⟨S65536x80, .f32⟩ : BufTy).Contents (Elt F) → (⟨S65536x80, .f32⟩ : BufTy).Contents (Elt F) → (⟨S65536x80, .f32⟩ : BufTy).Contents (Elt F)),
    StableHlo.nullary main_cst_2 (constant S_ .f32 0xFF800000#32),
    StableHlo.binary main_v20 main_cst_2 main_v21 ((fun x v => Host.reduce FloatOps.maximumf x v reducesTo_S65536x80_S65536_d1 h_S_) : (⟨S65536x80, .f32⟩ : BufTy).Contents (Elt F) → (⟨S_, .f32⟩ : BufTy).Contents (Elt F) → (⟨S65536, .f32⟩ : BufTy).Contents (Elt F)),
    StableHlo.nullary main_cst_3 (constant S_ .f32 0xFF800000#32),
    StableHlo.unary main_cst_3 main_v22 (broadcastInDim S65536 ![] bcast_S_S65536 : (⟨S_, .f32⟩ : BufTy).Contents (Elt F) → (⟨S65536, .f32⟩ : BufTy).Contents (Elt F)),
    StableHlo.binary main_v22 main_v21 main_v23 (maximumf : (⟨S65536, .f32⟩ : BufTy).Contents (Elt F) → (⟨S65536, .f32⟩ : BufTy).Contents (Elt F) → (⟨S65536, .f32⟩ : BufTy).Contents (Elt F)),
    StableHlo.unary main_v23 main_v24 (broadcastInDim S65536x1 ![0] bcast_S65536_S65536x1_0 : (⟨S65536, .f32⟩ : BufTy).Contents (Elt F) → (⟨S65536x1, .f32⟩ : BufTy).Contents (Elt F)),
    StableHlo.unary main_v24 main_v25 (broadcastInDim S65536x80 ![0, 1] bcast_S65536x1_S65536x80_0_1 : (⟨S65536x1, .f32⟩ : BufTy).Contents (Elt F) → (⟨S65536x80, .f32⟩ : BufTy).Contents (Elt F)),
    StableHlo.binary main_v20 main_v25 main_v26 (subf : (⟨S65536x80, .f32⟩ : BufTy).Contents (Elt F) → (⟨S65536x80, .f32⟩ : BufTy).Contents (Elt F) → (⟨S65536x80, .f32⟩ : BufTy).Contents (Elt F)),
    StableHlo.unary main_v26 main_v27 (Host.exp : (⟨S65536x80, .f32⟩ : BufTy).Contents (Elt F) → (⟨S65536x80, .f32⟩ : BufTy).Contents (Elt F)),
    StableHlo.nullary main_cst_4 (constant S_ .f32 0x00000000#32),
    StableHlo.binary main_v27 main_cst_4 main_v28 ((fun x v => Host.reduceAdd x v reducesTo_S65536x80_S65536_d1 h_S_) : (⟨S65536x80, .f32⟩ : BufTy).Contents (Elt F) → (⟨S_, .f32⟩ : BufTy).Contents (Elt F) → (⟨S65536, .f32⟩ : BufTy).Contents (Elt F)),
    StableHlo.unary main_v28 main_v29 (broadcastInDim S65536x1 ![0] bcast_S65536_S65536x1_0 : (⟨S65536, .f32⟩ : BufTy).Contents (Elt F) → (⟨S65536x1, .f32⟩ : BufTy).Contents (Elt F)),
    StableHlo.unary main_v29 main_v30 (broadcastInDim S65536x80 ![0, 1] bcast_S65536x1_S65536x80_0_1 : (⟨S65536x1, .f32⟩ : BufTy).Contents (Elt F) → (⟨S65536x80, .f32⟩ : BufTy).Contents (Elt F)),
    StableHlo.binary main_v27 main_v30 main_v31 (Host.divf : (⟨S65536x80, .f32⟩ : BufTy).Contents (Elt F) → (⟨S65536x80, .f32⟩ : BufTy).Contents (Elt F) → (⟨S65536x80, .f32⟩ : BufTy).Contents (Elt F)),
    StableHlo.unary main_v31 main_v32 ((extractStridedSlice S65536x64 ![0, 0] · slices_S65536x80_S65536x64_0_0) : (⟨S65536x80, .f32⟩ : BufTy).Contents (Elt F) → (⟨S65536x64, .f32⟩ : BufTy).Contents (Elt F)),
    StableHlo.reshape main_v32 main_v33 rfl shapeCasts_S65536x64_S32x2048x64,
    StableHlo.nullary main_cst_5 (constant S_ .f32 0x00000000#32),
    StableHlo.binary main_v33 main_cst_5 main_v34 ((fun x v => Host.reduceAdd x v reducesTo_S32x2048x64_S32x64_d1 h_S_) : (⟨S32x2048x64, .f32⟩ : BufTy).Contents (Elt F) → (⟨S_, .f32⟩ : BufTy).Contents (Elt F) → (⟨S32x64, .f32⟩ : BufTy).Contents (Elt F)),
    StableHlo.unary main_v34 main_v35 (broadcastInDim S32x1x64 ![0, 2] bcast_S32x64_S32x1x64_0_2 : (⟨S32x64, .f32⟩ : BufTy).Contents (Elt F) → (⟨S32x1x64, .f32⟩ : BufTy).Contents (Elt F)),
    StableHlo.unary main_v35 main_v36 (broadcastInDim S32x512x64 ![0, 1, 2] bcast_S32x1x64_S32x512x64_0_1_2 : (⟨S32x1x64, .f32⟩ : BufTy).Contents (Elt F) → (⟨S32x512x64, .f32⟩ : BufTy).Contents (Elt F)),
    StableHlo.unary main_arg2 main_v37 (broadcastInDim S32x512x64 ![0, 1, 2] bcast_S1x512x64_S32x512x64_0_1_2 : (⟨S1x512x64, .f32⟩ : BufTy).Contents (Elt F) → (⟨S32x512x64, .f32⟩ : BufTy).Contents (Elt F)),
    StableHlo.binary main_v36 main_v37 main_v38 (mulf : (⟨S32x512x64, .f32⟩ : BufTy).Contents (Elt F) → (⟨S32x512x64, .f32⟩ : BufTy).Contents (Elt F) → (⟨S32x512x64, .f32⟩ : BufTy).Contents (Elt F)),
    StableHlo.binary main_arg0 main_v33 main_v39 ((fun l r => Host.dotGeneral dot_S32x2048x512_S32x2048x64_S32x512x64_1_1_2_2_0_0 none l r) : (⟨S32x2048x512, .f32⟩ : BufTy).Contents (Elt F) → (⟨S32x2048x64, .f32⟩ : BufTy).Contents (Elt F) → (⟨S32x512x64, .f32⟩ : BufTy).Contents (Elt F)),
    StableHlo.binary main_v39 main_v38 main_v40 (subf : (⟨S32x512x64, .f32⟩ : BufTy).Contents (Elt F) → (⟨S32x512x64, .f32⟩ : BufTy).Contents (Elt F) → (⟨S32x512x64, .f32⟩ : BufTy).Contents (Elt F)),
    StableHlo.TRef.binary (.of main_v40) (.of main_v40) main_call1.v0 mulf,
    StableHlo.TRef.nullary main_call1.cst (constant S_ .f32 0x00000000#32),
    StableHlo.TRef.binary main_call1.v0 main_call1.cst main_call1.v1 (fun x v => Host.reduceAdd x v reducesTo_S32x512x64_S32x64_d1 h_S_),
    StableHlo.TRef.unary main_call1.v1 main_call1.v2 (broadcastInDim S32x1x64 ![0, 2] bcast_S32x64_S32x1x64_0_2),
    StableHlo.TRef.unary main_call1.v2 main_call1.v3 Host.sqrt,
    StableHlo.nullary main_cst_6 (constant S_ .f32 0x2B8CBCCC#32),
    StableHlo.unary main_cst_6 main_v42 (broadcastInDim S32x1x64 ![] bcast_S_S32x1x64 : (⟨S_, .f32⟩ : BufTy).Contents (Elt F) → (⟨S32x1x64, .f32⟩ : BufTy).Contents (Elt F)),
    StableHlo.binary main_v41 main_v42 main_v43 (maximumf : (⟨S32x1x64, .f32⟩ : BufTy).Contents (Elt F) → (⟨S32x1x64, .f32⟩ : BufTy).Contents (Elt F) → (⟨S32x1x64, .f32⟩ : BufTy).Contents (Elt F)),
    StableHlo.unary main_v43 main_v44 (broadcastInDim S32x512x64 ![0, 1, 2] bcast_S32x1x64_S32x512x64_0_1_2 : (⟨S32x1x64, .f32⟩ : BufTy).Contents (Elt F) → (⟨S32x512x64, .f32⟩ : BufTy).Contents (Elt F)),
    StableHlo.binary main_v40 main_v44 main_v45 (Host.divf : (⟨S32x512x64, .f32⟩ : BufTy).Contents (Elt F) → (⟨S32x512x64, .f32⟩ : BufTy).Contents (Elt F) → (⟨S32x512x64, .f32⟩ : BufTy).Contents (Elt F)),
    StableHlo.reshape main_v45 main_v46 rfl shapeCasts_S32x512x64_S32x32768,
    StableHlo.TRef.binary (.of main_v46) (.of main_v46) main_call2.v0 mulf,
    StableHlo.TRef.nullary main_call2.cst (constant S_ .f32 0x00000000#32),
    StableHlo.TRef.binary main_call2.v0 main_call2.cst main_call2.v1 (fun x v => Host.reduceAdd x v reducesTo_S32x32768_S32_d1 h_S_),
    StableHlo.TRef.unary main_call2.v1 main_call2.v2 (broadcastInDim S32x1 ![0] bcast_S32_S32x1_0),
    StableHlo.TRef.unary main_call2.v2 main_call2.v3 Host.sqrt,
    StableHlo.nullary main_cst_7 (constant S_ .f32 0x2B8CBCCC#32),
    StableHlo.unary main_cst_7 main_v48 (broadcastInDim S32x1 ![] bcast_S_S32x1 : (⟨S_, .f32⟩ : BufTy).Contents (Elt F) → (⟨S32x1, .f32⟩ : BufTy).Contents (Elt F)),
    StableHlo.binary main_v47 main_v48 main_v49 (maximumf : (⟨S32x1, .f32⟩ : BufTy).Contents (Elt F) → (⟨S32x1, .f32⟩ : BufTy).Contents (Elt F) → (⟨S32x1, .f32⟩ : BufTy).Contents (Elt F)),
    StableHlo.unary main_v49 main_v50 (broadcastInDim S32x32768 ![0, 1] bcast_S32x1_S32x32768_0_1 : (⟨S32x1, .f32⟩ : BufTy).Contents (Elt F) → (⟨S32x32768, .f32⟩ : BufTy).Contents (Elt F)),
    StableHlo.binary main_v46 main_v50 main_v51 (Host.divf : (⟨S32x32768, .f32⟩ : BufTy).Contents (Elt F) → (⟨S32x32768, .f32⟩ : BufTy).Contents (Elt F) → (⟨S32x32768, .f32⟩ : BufTy).Contents (Elt F)) ]

set_option maxRecDepth 4096 in
set_option maxHeartbeats 4000000 in
/-- The program is that straight line: the helper functions unfolded at their calls, and sequencing reassociated. -/
theorem main_eq (c : Dev nD) : main (F := F) c = seq ops := by
  simp only [main, main_part0, main_part1, fn_var.body, fn_where.body, fn_norm.body, fn_norm_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore references. -/
theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., nullary_bufs_sub .., binary_bufs_sub .., unary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 16384 in
set_option maxHeartbeats 8000000 in
/-- The fold of the operations read at the result buffer: each operation's result at its own buffer is its function of
    its operands' contents, and at any other buffer what was there; composed, that is the reference's term of the
    five arguments. -/
theorem out_eq (V : Valuation τ sig (Elt F)) :
    after (ops (F := F)) V (Proc.devRef .tc main_v51)
      = Term.result (V (Proc.devRef .tc main_arg0)) (V (Proc.devRef .tc main_arg1)) (V (Proc.devRef .tc main_arg2))
          (V (Proc.devRef .tc main_arg3)) (V (Proc.devRef .tc main_arg4)) := by
  after_results_simp
  rfl

set_option maxRecDepth 8192 in
set_option maxHeartbeats 4000000 in
/-- No operation writes argument 0. -/
theorem arg0_eq (V : Valuation τ sig (Elt F)) :
    after (ops (F := F)) V (Proc.devRef .tc main_arg0) = V (Proc.devRef .tc main_arg0) := by
  after_results_simp

set_option maxRecDepth 8192 in
set_option maxHeartbeats 4000000 in
/-- No operation writes argument 1. -/
theorem arg1_eq (V : Valuation τ sig (Elt F)) :
    after (ops (F := F)) V (Proc.devRef .tc main_arg1) = V (Proc.devRef .tc main_arg1) := by
  after_results_simp

set_option maxRecDepth 8192 in
set_option maxHeartbeats 4000000 in
/-- No operation writes argument 2. -/
theorem arg2_eq (V : Valuation τ sig (Elt F)) :
    after (ops (F := F)) V (Proc.devRef .tc main_arg2) = V (Proc.devRef .tc main_arg2) := by
  after_results_simp

set_option maxRecDepth 8192 in
set_option maxHeartbeats 4000000 in
/-- No operation writes argument 3. -/
theorem arg3_eq (V : Valuation τ sig (Elt F)) :
    after (ops (F := F)) V (Proc.devRef .tc main_arg3) = V (Proc.devRef .tc main_arg3) := by
  after_results_simp

set_option maxRecDepth 8192 in
set_option maxHeartbeats 4000000 in
/-- No operation writes argument 4. -/
theorem arg4_eq (V : Valuation τ sig (Elt F)) :
    after (ops (F := F)) V (Proc.devRef .tc main_arg4) = V (Proc.devRef .tc main_arg4) := by
  after_results_simp

set_option maxRecDepth 8192 in
set_option maxHeartbeats 4000000 in
/-- The run, read. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v51) = Term.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v51).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefStats.lean ====
/-
  The reference's logits and column statistics read at an element: the logits at flattened row `i` and cluster `k` are
  the sum over the 512 features of feature times centre; the column mean is the column sum over the row count; the column
  variance is the column sum of the centred squares over the row count (the divisor, the row count less zero, is positive,
  so the guarded quotient is the quotient).
-/
import proofs.«143529_j19069654794906_1_alg».proof.Proof.RefTerm
import proofs.«143529_j19069654794906_1_alg».proof.Proof.Spec
import proofs.«143529_j19069654794906_1_alg».proof.Proof.Args
import proofs.«143529_j19069654794906_1_alg».proof.Proof.LibRowwise
import Idealize.ShloMosaic.Lib.Pipeline.Value
import Idealize.ShloMosaic.Lib.ValueLayout
import Idealize.ShloMosaic.PureOps.Ideal.Laws

noncomputable section

namespace Cert.ReferenceIdeal.Read

open Idealize.ShloMosaic Idealize.ShloMosaic.ValueIdx
open Cert.ReferenceIdeal Cert.ReferenceIdeal.Term Cert.Vlad

variable [Facts]
open Facts₀ Facts

/-- Row `n` of batch `b` among the 65536 flattened rows. -/
def rowOf (b : Fin 32) (n : Fin 2048) : Fin 65536 := ⟨b.val * 2048 + n.val, by have := b.isLt; have := n.isLt; omega⟩

/-! ## The logits -/

/-- The plain product through the host's operation, at (p, q). -/
theorem hostDot_plain_apply {M K N : Nat} {φ₁ φ₂ : FTy} (prec : Option ContractPrecision) (a : FVec Ideal ⟨2, ![M, K]⟩ φ₁)
    (b : FVec Ideal ⟨2, ![K, N]⟩ φ₂) (p : Fin M) (q : Fin N) :
    Host.dotGeneral (DotDims.plain M K N) prec a b (ix2 p q) = ∑ k : Fin K, a (ix2 p k) * b (ix2 k q) := by
  show FloatOps.dotGeneral _ prec _ a b (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact Cert.Lib.Rowwise.plain_lhs0 _ _
      | ⟨1, _⟩ => exact (Cert.Lib.Rowwise.plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (Cert.Lib.Rowwise.plain_rhs0 _ _).trans hk
      | ⟨1, _⟩ => exact Cert.Lib.Rowwise.plain_rhs1 _ _)
  rw [el, er]

/-- The logits' product contracts the rows' axis 1 with the centres' axis 0 and has no batch axes: the plain product. -/
theorem dot_eq_plain : dot_S65536x512_S512x80_S65536x80_1_0_0_1_n_n = DotDims.plain 65536 512 80 :=
  Cert.Lib.Rowwise.eq_plain _ rfl rfl rfl rfl rfl rfl

/-- The features as 65536 rows, at (i, d). -/
theorem rows_apply (x : FVec Ideal S32x2048x512 .f32) (i : Fin 65536) (d : Fin 512) :
    shapeCast S65536x512 x shapeCasts_S32x2048x512_S65536x512 (ix2 i d)
      = x (ix3 ⟨i.val / 2048, by have := i.isLt; omega⟩ ⟨i.val % 2048, Nat.mod_lt _ (by norm_num)⟩ d) := by
  refine shapeCast_apply x _ (ix2 i d) _ ?_
  rw [Shape.rowMajor_val_three, Shape.rowMajor_val_two]
  show (i.val / 2048 * 2048 + i.val % 2048) * 512 + d.val = i.val * 512 + d.val
  have := Nat.div_add_mod i.val 2048
  omega

/-- The logits at flattened row `i`, cluster `k`. -/
theorem logits_apply (x : FVec Ideal S32x2048x512 .f32) (cl : FVec Ideal S512x80 .f32) (i : Fin 65536) (k : Fin 80) :
    logitsT x cl (ix2 i k) = flatRow (assn (fn3 x) (fn2 cl)) i k := by
  unfold logitsT
  rw [dot_eq_plain, hostDot_plain_apply]
  unfold flatRow assn fn3 fn2
  exact Finset.sum_congr rfl fun d _ => by rw [rows_apply]

/-! ## The column mean -/

/-- A scalar broadcast to any shape reads, at every index, the scalar. -/
theorem scalarBroadcast_apply {α : Type} {t : Shape} (dims : Fin 0 → Fin t.rank) (h : S_.BroadcastsInDim t dims)
    (x : S_.Idx → α) (j : t.Idx) : broadcastInDim t dims h x j = x ix0 :=
  broadcastInDim_apply dims h x j ix0 fun a => a.elim0

/-- Column `k` with row `i` put back is `(i, k)`. -/
theorem lift_col {A B : Nat} (h : (⟨2, ![A, B]⟩ : Shape).Reduces [0] ⟨1, ![B]⟩) (k : Fin B) (i : Fin A) :
    h.lift (ix1 k) i = ix2 i k :=
  funext fun a => Fin.ext (by match a with | ⟨0, _⟩ => rfl | ⟨1, _⟩ => rfl)

/-- The column sum from zero at `k`. -/
theorem colSumT_apply (A : FVec Ideal S65536x80 .f32) (k : Fin 80) :
    colSumT A (ix1 k) = ∑ i : Fin 65536, A (ix2 i k) := by
  unfold colSumT Host.reduceAdd
  rw [Ideal.hostReduceAdd_def, Ideal.hostReduceAdd_single reducesTo_S65536x80_S80_d0 (by decide), constant_apply,
    Ideal.ofBits_zero_f32, zero_add]
  exact Finset.sum_congr rfl fun i _ => congrArg A (lift_col _ k i)

/-- The host's quotient at an index. -/
theorem hostDivf_apply {s : Shape} {φ : FTy} (a b : FVec Ideal s φ) (i : s.Idx) : Host.divf a b i = Ideal.div (a i) (b i) := rfl

/-- The column mean at `k`. -/
theorem meanT_apply (A : FVec Ideal S65536x80 .f32) (k : Fin 80) :
    meanT A (ix1 k) = Ideal.div (∑ i : Fin 65536, A (ix2 i k)) rows := by
  unfold meanT
  rw [hostDivf_apply, colSumT_apply, scalarBroadcast_apply, constant_apply]
  rfl

/-! ## The column variance -/

/-- The column mean as the column sum over the row count. -/
theorem meanT_eq (A : FVec Ideal S65536x80 .f32) (k : Fin 80) : meanT A (ix1 k) = Ideal.div (colSumT A (ix1 k)) rows := by
  unfold meanT
  rw [hostDivf_apply, scalarBroadcast_apply, constant_apply]
  rfl

/-- A length-80 row laid as a `1 × 80` table, at `(0, k)`. -/
theorem asRow_apply {α : Type} (v : S80.Idx → α) (u : Fin 1) (k : Fin 80) :
    broadcastInDim S1x80 ![1] bcast_S80_S1x80_1 v (ix2 u k) = v (ix1 k) :=
  broadcastInDim_apply _ _ v (ix2 u k) (ix1 k) fun a => by
    match a with
    | ⟨0, _⟩ => exact (if_neg (show ¬ ((80 : ℕ) = 1) by decide)).symm

/-- A `1 × 80` table spread over the 65536 rows, at `(i, k)`. -/
theorem overRows_apply {α : Type} (v : S1x80.Idx → α) (i : Fin 65536) (k : Fin 80) :
    broadcastInDim S65536x80 ![0, 1] bcast_S1x80_S65536x80_0_1 v (ix2 i k) = v (ix2 0 k) :=
  broadcastInDim_apply _ _ v (ix2 i k) (ix2 0 k) fun a => by
    match a with
    | ⟨0, _⟩ => exact (if_pos rfl).symm
    | ⟨1, _⟩ => exact (if_neg (show ¬ ((80 : ℕ) = 1) by decide)).symm

/-- The centred table at `(i, k)`. -/
theorem centredT_apply (A : FVec Ideal S65536x80 .f32) (i : Fin 65536) (k : Fin 80) :
    centredT A (ix2 i k) = A (ix2 i k) - meanT A (ix1 k) := by
  unfold centredT
  rw [subf_apply, overRows_apply, hostDivf_apply, asRow_apply, scalarBroadcast_apply, constant_apply, meanT_eq]
  rfl

/-- The divisor is the row count. -/
theorem dofT_apply (j : S_.Idx) : dofT (F := Ideal) j = rows := by
  unfold dofT
  rw [subf_apply, constant_apply, sitofp_apply]
  have h0 : (FloatOps.sitofp (F := Ideal) .f32 (constantI S_ 32 0#32 j)) = 0 := by
    show (((0#32 : BitVec 32).toInt : ℝ) : EReal) = 0
    simp
  rw [h0, sub_zero]
  rfl

/-- The row count is positive. -/
theorem rows_pos : (0 : EReal) < rows := by
  rw [rows_eq]; exact EReal.coe_pos.mpr (by norm_num)

/-- The divisor is positive. -/
theorem dof_pos_apply (j : S_.Idx) :
    cmpf .ogt (dofT (F := Ideal)) (constant S_ .f32 0x00000000#32) j = 1#1 := by
  rw [cmpf_apply, dofT_apply, constant_apply, Ideal.ofBits_zero_f32]
  show BitVec.ofBool (decide ((0 : EReal) < rows)) = 1#1
  rw [decide_eq_true rows_pos]
  rfl

/-- The column variance at `k`. -/
theorem varT_apply (A : FVec Ideal S65536x80 .f32) (k : Fin 80) :
    varT A (ix1 k) = Ideal.div (∑ i : Fin 65536, (A (ix2 i k) - meanT A (ix1 k)) * (A (ix2 i k) - meanT A (ix1 k))) rows := by
  unfold varT
  rw [select_apply, scalarBroadcast_apply, dof_pos_apply, select_one, hostDivf_apply, colSumT_apply, scalarBroadcast_apply,
    dofT_apply]
  refine congrArg (fun t => Ideal.div t rows) (Finset.sum_congr rfl fun i _ => ?_)
  rw [mulf_apply, centredT_apply]

end Cert.ReferenceIdeal.Read

end
-- ==== Proof.RefProb.lean ====
/-
  The reference's normalisation and softmax read at an element.
-/
import proofs.«143529_j19069654794906_1_alg».proof.Proof.RefTerm
import proofs.«143529_j19069654794906_1_alg».proof.Proof.Spec
import proofs.«143529_j19069654794906_1_alg».proof.Proof.Args
import proofs.«143529_j19069654794906_1_alg».proof.Proof.LibRowwise
import Idealize.ShloMosaic.Lib.Pipeline.Value
import Idealize.ShloMosaic.Lib.ValueLayout
import Idealize.ShloMosaic.Lib.IdealHost
import proofs.«143529_j19069654794906_1_alg».proof.Proof.RefStats

noncomputable section

namespace Cert.ReferenceIdeal.Read

open Idealize.ShloMosaic Idealize.ShloMosaic.ValueIdx
open Cert.ReferenceIdeal Cert.ReferenceIdeal.Term Cert.Vlad

variable [Facts]
open Facts₀ Facts

/-- A length-80 row spread over the rows reads, at `(i, k)`, the row at `k`. -/
theorem spreadT_apply (r : FVec Ideal S80 .f32) (i : Fin 65536) (k : Fin 80) :
    spreadT r (ix2 i k) = r (ix1 k) := by
  unfold spreadT
  rw [broadcastInDim_apply ![0, 1] bcast_S1x80_S65536x80_0_1 _ (ix2 i k) (ix2 (0 : Fin 1) k) (fun a => by
    match a with
    | ⟨0, _⟩ => rfl
    | ⟨1, _⟩ => rfl)]
  exact broadcastInDim_apply ![1] bcast_S80_S1x80_1 r (ix2 (0 : Fin 1) k) (ix1 k) (fun a => by
    match a with
    | ⟨0, _⟩ => rfl)

/-- A length-65536 column spread over the lanes reads, at `(i, k)`, the column at `i`. -/
theorem lanesT_apply (r : FVec Ideal S65536 .f32) (i : Fin 65536) (k : Fin 80) :
    lanesT r (ix2 i k) = r (ix1 i) := by
  unfold lanesT
  rw [broadcastInDim_apply ![0, 1] bcast_S65536x1_S65536x80_0_1 _ (ix2 i k) (ix2 i (0 : Fin 1)) (fun a => by
    match a with
    | ⟨0, _⟩ => rfl
    | ⟨1, _⟩ => rfl)]
  exact broadcastInDim_apply ![0] bcast_S65536_S65536x1_0 r (ix2 i (0 : Fin 1)) (ix1 i) (fun a => by
    match a with
    | ⟨0, _⟩ => rfl)

/-- The normalised, scaled and shifted table at `(i, k)`. -/
theorem normT_apply (A : FVec Ideal S65536x80 .f32) (mu va g be : FVec Ideal S80 .f32) (i : Fin 65536) (k : Fin 80) :
    normT A mu va g be (ix2 i k)
      = (A (ix2 i k) - mu (ix1 k)) * Ideal.rsqrt (va (ix1 k) + epsBN) * g (ix1 k) + be (ix1 k) := by
  unfold normT
  rw [addf_apply, mulf_apply, mulf_apply, subf_apply, spreadT_apply, spreadT_apply, spreadT_apply, spreadT_apply]
  rfl

/-- The row maximum at row `i`: the fold of `max` from the starting word's value over the row. -/
theorem rowMax_apply (Z : FVec Ideal S65536x80 .f32) (w : BitVec 32) (i : Fin 65536) :
    Host.reduce FloatOps.maximumf Z (constant S_ .f32 w) reducesTo_S65536x80_S65536_d1 h_S_ (ix1 i)
      = (Finset.univ : Finset (Fin 80)).fold max (Ideal.ofBits .f32 w) (fun k => Z (ix2 i k)) := by
  have h : S65536x80.Reduces [1] S65536 := by decide
  rw [Host.reduce_eq_fold_single FloatOps.maximumf Z _ reducesTo_S65536x80_S65536_d1 h h_S_ (ix1 i)]
  have e : (Z ∘ h.lift (ix1 i)) = fun k => Z (ix2 i k) :=
    funext fun k => congrArg Z (Cert.Lib.Rowwise.lift_row h i k)
  rw [e]
  rfl

/-- The row sum from zero at row `i`. -/
theorem rowSum_apply (E : FVec Ideal S65536x80 .f32) (i : Fin 65536) :
    Host.reduceAdd E (constant S_ .f32 0x00000000#32) reducesTo_S65536x80_S65536_d1 h_S_ (ix1 i)
      = ∑ k : Fin 80, E (ix2 i k) := by
  have h : S65536x80.Reduces [1] S65536 := by decide
  rw [hostReduceAdd_apply, Ideal.hostReduceAdd_single reducesTo_S65536x80_S65536_d1 h, constant_apply,
    Ideal.ofBits_zero_f32, zero_add]
  exact Finset.sum_congr rfl fun k _ => congrArg E (Cert.Lib.Rowwise.lift_row h i k)

/-- The exponentials at `(i, k)`: of the entry less the row's maximum (joined with −∞ once more). -/
theorem expT_apply (Z : FVec Ideal S65536x80 .f32) (i : Fin 65536) (k : Fin 80) :
    expT Z (ix2 i k)
      = Ideal.exp (Z (ix2 i k) - max negInf ((Finset.univ : Finset (Fin 80)).fold max negInf (fun k' => Z (ix2 i k')))) := by
  unfold expT
  show Ideal.exp (subf Z _ (ix2 i k)) = _
  rw [subf_apply, lanesT_apply, maximumf_apply, rowMax_apply, broadcastInDim_scalar_apply, constant_apply]
  rfl

/-- The row-wise softmax at `(i, k)`. -/
theorem softT_apply (Z : FVec Ideal S65536x80 .f32) (i : Fin 65536) (k : Fin 80) :
    softT Z (ix2 i k) = Ideal.div (expT Z (ix2 i k)) (∑ k' : Fin 80, expT Z (ix2 i k')) := by
  unfold softT
  rw [hostDivf_apply, lanesT_apply, rowSum_apply]

/-- The first 64 columns laid out per batch read, at `(b, n, k)`, the table at row `b · 2048 + n`, column `k`. -/
theorem probT_read (P : FVec Ideal S65536x80 .f32) (b : Fin 32) (n : Fin 2048) (k : Fin 64) :
    probT P (ix3 b n k) = P (ix2 (rowOf b n) ⟨k.val, by have := k.isLt; omega⟩) := by
  unfold probT
  rw [shapeCast_apply _ shapeCasts_S65536x64_S32x2048x64 (ix3 b n k) (ix2 (rowOf b n) k) (by
    rw [Shape.rowMajor_val_two, Shape.rowMajor_val_three]
    show (b.val * 2048 + n.val) * 64 + k.val = (b.val * 2048 + n.val) * 64 + k.val
    rfl)]
  exact slice2_axis1_apply 0 P slices_S65536x80_S65536x64_0_0 (rowOf b n) k ⟨k.val, by have := k.isLt; omega⟩ (by simp)

/-- The probabilities at batch `b`, row `n`, cluster `k`, for any logits table, mean, variance, scale and shift. -/
theorem probT_apply (A : FVec Ideal S65536x80 .f32) (mu va g be : FVec Ideal S80 .f32) (b : Fin 32) (n : Fin 2048) (k : Fin 64) :
    probT (softT (normT A mu va g be)) (ix3 b n k)
      = probK (fun b n k => A (ix2 (rowOf b n) k)) (fn1 mu) (fn1 va) (fn1 g) (fn1 be) b n k := by
  rw [probT_read, softT_apply]
  simp only [expT_apply, normT_apply]
  rfl

end Cert.ReferenceIdeal.Read

end
-- ==== Proof.RefAgg.lean ====
/-
  The reference's aggregation and its two normalisations read at an element.

  The residual aggregate at (b, d, k) is ∑ₙ x(b, n, d) · P(b, n, k) − (∑ₙ P(b, n, k)) · c2(0, d, k): a product batched over b
  and contracted over the 2048 rows, less the column sums of P spread over the 512 features times the centres spread over
  the 32 batches. Each column (b, ·, k) is divided by the larger of its Euclidean norm and ε; the 32 × 512 × 64 table is
  laid out as 32 rows of 32768, entry j of a row being (j / 64, j % 64); each row is divided by the larger of its
  Euclidean norm and ε, and the sum over a row's 32768 entries is the double sum over 512 features and 64 clusters.
-/
import proofs.«143529_j19069654794906_1_alg».proof.Proof.RefTerm
import proofs.«143529_j19069654794906_1_alg».proof.Proof.Spec
import proofs.«143529_j19069654794906_1_alg».proof.Proof.Args
import Idealize.ShloMosaic.Lib.Pipeline.Value
import Idealize.ShloMosaic.Lib.ValueLayout
import Idealize.ShloMosaic.Lib.IdealHost

noncomputable section

namespace Cert.ReferenceIdeal.Read

open Idealize.ShloMosaic Idealize.ShloMosaic.ValueIdx
open Cert.ReferenceIdeal Cert.ReferenceIdeal.Term Cert.Vlad

variable [Facts]
open Facts₀ Facts

namespace Agg

/-! ## The batched product

The product's record takes axis 0 of both operands as the batch, contracts axis 1 of both, and keeps axis 2 of both: at
result index (b, d, k) and contraction position n the left operand is read at (b, n, d), the right at (b, n, k). -/

theorem bd_lhs0 (j : S32x512x64.Idx) (q : dot_S32x2048x512_S32x2048x64_S32x512x64_1_1_2_2_0_0.contr.Idx) :
    (dot_S32x2048x512_S32x2048x64_S32x512x64_1_1_2_2_0_0.lhsIdx j q 0).val = (j 0).val := by
  simp [DotDims.lhsIdx, dot_S32x2048x512_S32x2048x64_S32x512x64_1_1_2_2_0_0]; rfl
theorem bd_lhs2 (j : S32x512x64.Idx) (q : dot_S32x2048x512_S32x2048x64_S32x512x64_1_1_2_2_0_0.contr.Idx) :
    (dot_S32x2048x512_S32x2048x64_S32x512x64_1_1_2_2_0_0.lhsIdx j q 2).val = (j 1).val := by
  simp [DotDims.lhsIdx, dot_S32x2048x512_S32x2048x64_S32x512x64_1_1_2_2_0_0]; rfl
theorem bd_lhs1 (j : S32x512x64.Idx) (q : dot_S32x2048x512_S32x2048x64_S32x512x64_1_1_2_2_0_0.contr.Idx) :
    (dot_S32x2048x512_S32x2048x64_S32x512x64_1_1_2_2_0_0.lhsIdx j q 1).val = (q ⟨0, Nat.one_pos⟩).val :=
  DotDims.lhsIdx_val_of_single _ rfl j q
theorem bd_rhs0 (j : S32x512x64.Idx) (q : dot_S32x2048x512_S32x2048x64_S32x512x64_1_1_2_2_0_0.contr.Idx) :
    (dot_S32x2048x512_S32x2048x64_S32x512x64_1_1_2_2_0_0.rhsIdx j q 0).val = (j 0).val := by
  simp [DotDims.rhsIdx, dot_S32x2048x512_S32x2048x64_S32x512x64_1_1_2_2_0_0]; rfl
theorem bd_rhs2 (j : S32x512x64.Idx) (q : dot_S32x2048x512_S32x2048x64_S32x512x64_1_1_2_2_0_0.contr.Idx) :
    (dot_S32x2048x512_S32x2048x64_S32x512x64_1_1_2_2_0_0.rhsIdx j q 2).val = (j 2).val := by
  simp [DotDims.rhsIdx, dot_S32x2048x512_S32x2048x64_S32x512x64_1_1_2_2_0_0]; rfl
theorem bd_rhs1 (j : S32x512x64.Idx) (q : dot_S32x2048x512_S32x2048x64_S32x512x64_1_1_2_2_0_0.contr.Idx) :
    (dot_S32x2048x512_S32x2048x64_S32x512x64_1_1_2_2_0_0.rhsIdx j q 1).val = (q ⟨0, Nat.one_pos⟩).val :=
  DotDims.rhsIdx_val_of_single _ rfl j q

/-- The batched product at (b, d, k): the sum over the 2048 rows of x(b, n, d) · P(b, n, k). -/
theorem bdot_apply (x : FVec Ideal S32x2048x512 .f32) (P : FVec Ideal S32x2048x64 .f32) (b : Fin 32) (d : Fin 512) (k : Fin 64) :
    Host.dotGeneral dot_S32x2048x512_S32x2048x64_S32x512x64_1_1_2_2_0_0 none x P (ix3 b d k) = ∑ n : Fin 2048, x (ix3 b n d) * P (ix3 b n k) := by
  simp only [Host.dotGeneral]
  rw [Ideal.dotGeneral_apply, ← Equiv.sum_comp (contrEquiv1 dot_S32x2048x512_S32x2048x64_S32x512x64_1_1_2_2_0_0 2048 rfl rfl).symm]
  refine Finset.sum_congr rfl fun n _ => ?_
  have hk := contrEquiv1_symm_val dot_S32x2048x512_S32x2048x64_S32x512x64_1_1_2_2_0_0 2048 rfl rfl n
  have el : dot_S32x2048x512_S32x2048x64_S32x512x64_1_1_2_2_0_0.lhsIdx (ix3 b d k) ((contrEquiv1 dot_S32x2048x512_S32x2048x64_S32x512x64_1_1_2_2_0_0 2048 rfl rfl).symm n) = ix3 b n d :=
    funext fun a => Fin.ext (by
      match a with
      | ⟨0, _⟩ => exact bd_lhs0 _ _
      | ⟨1, _⟩ => exact (bd_lhs1 _ _).trans hk
      | ⟨2, _⟩ => exact bd_lhs2 _ _)
  have er : dot_S32x2048x512_S32x2048x64_S32x512x64_1_1_2_2_0_0.rhsIdx (ix3 b d k) ((contrEquiv1 dot_S32x2048x512_S32x2048x64_S32x512x64_1_1_2_2_0_0 2048 rfl rfl).symm n) = ix3 b n k :=
    funext fun a => Fin.ext (by
      match a with
      | ⟨0, _⟩ => exact bd_rhs0 _ _
      | ⟨1, _⟩ => exact (bd_rhs1 _ _).trans hk
      | ⟨2, _⟩ => exact bd_rhs2 _ _)
  rw [el, er]

/-! ## Sums over the middle axis of a rank-3 table -/

section Mid
variable {A B C : Nat}

/-- The index (a, c) with m put back on the middle axis is (a, m, c). -/
theorem lift_mid (h : (⟨3, ![A, B, C]⟩ : Shape).Reduces [1] ⟨2, ![A, C]⟩) (a : Fin A) (c : Fin C) (m : Fin B) :
    h.lift (ix2 a c) m = ix3 a m c :=
  funext fun e => Fin.ext (by match e with | ⟨0, _⟩ => rfl | ⟨1, _⟩ => rfl | ⟨2, _⟩ => rfl)

/-- The sum over the middle axis from zero, at (a, c): ∑ₘ V(a, m, c). -/
theorem midSum_apply (V : FVec Ideal ⟨3, ![A, B, C]⟩ .f32) (h' : (⟨3, ![A, B, C]⟩ : Shape).ReducesTo [1] ⟨2, ![A, C]⟩)
    (h : (⟨3, ![A, B, C]⟩ : Shape).Reduces [1] ⟨2, ![A, C]⟩) (hu : 0 < S_.numel) (a : Fin A) (c : Fin C) :
    Host.reduceAdd V (constant (F := Ideal) S_ .f32 0x00000000#32) h' hu (ix2 a c) = ∑ m : Fin B, V (ix3 a m c) := by
  rw [hostReduceAdd_apply, Ideal.hostReduceAdd_single h' h, constant_apply, Ideal.ofBits_zero_f32, zero_add]
  exact Finset.sum_congr rfl fun m _ => congrArg V (lift_mid h a c m)
end Mid

/-! ## The residual aggregate -/

/-- A 32 × 64 table spread over the 512 features reads, at (b, d, k), the table at (b, k). -/
theorem featsT_apply (r : FVec Ideal S32x64 .f32) (b : Fin 32) (d : Fin 512) (k : Fin 64) :
    featsT r (ix3 b d k) = r (ix2 b k) := by
  unfold featsT
  refine (broadcastInDim_apply _ _ _ (ix3 b d k) (ix3 b 0 k) (fun a => ?_)).trans ?_
  · match a with
    | ⟨0, _⟩ => rfl
    | ⟨1, _⟩ => rfl
    | ⟨2, _⟩ => rfl
  refine broadcastInDim_apply _ _ _ (ix3 b 0 k) (ix2 b k) (fun a => ?_)
  match a with
  | ⟨0, _⟩ => rfl
  | ⟨1, _⟩ => rfl

/-- The one slab of centres spread over the 32 batches reads, at (b, d, k), the slab at (0, d, k). -/
theorem slabBroadcast_apply (c2 : FVec Ideal S1x512x64 .f32) (b : Fin 32) (d : Fin 512) (k : Fin 64) :
    broadcastInDim S32x512x64 ![0, 1, 2] bcast_S1x512x64_S32x512x64_0_1_2 c2 (ix3 b d k) = c2 (ix3 0 d k) := by
  refine broadcastInDim_apply _ _ _ (ix3 b d k) (ix3 0 d k) (fun a => ?_)
  match a with
  | ⟨0, _⟩ => rfl
  | ⟨1, _⟩ => rfl
  | ⟨2, _⟩ => rfl

/-- The residual aggregate at (b, d, k) is the specification's. -/
theorem vladT_apply (x : FVec Ideal S32x2048x512 .f32) (P : FVec Ideal S32x2048x64 .f32) (c2 : FVec Ideal S1x512x64 .f32)
    (b : Fin 32) (d : Fin 512) (k : Fin 64) :
    vladT x P c2 (ix3 b d k) = vlad (fn3 P) (fn3 x) (slab0 c2) b d k := by
  unfold vladT
  rw [subf_apply, mulf_apply, bdot_apply, featsT_apply, midSum_apply _ _ (by decide), slabBroadcast_apply]
  rfl

/-! ## The column normalisation -/

/-- A square root of a table at an index is the square root of the entry. -/
theorem hostSqrt_apply {s : Shape} (a : FVec Ideal s .f32) (i : s.Idx) : Host.sqrt a i = Ideal.sqrt (a i) := rfl

/-- Each entry over the larger of its column's Euclidean norm (over the 512 features) and ε. -/
theorem intraT_apply (W : FVec Ideal S32x512x64 .f32) (b : Fin 32) (d : Fin 512) (k : Fin 64) :
    intraT W (ix3 b d k)
      = Ideal.div (W (ix3 b d k)) (max (Ideal.sqrt (∑ d' : Fin 512, W (ix3 b d' k) * W (ix3 b d' k))) epsL2) := by
  unfold intraT
  rw [hostDivf_apply]
  refine congrArg (Ideal.div _) ?_
  refine (broadcastInDim_apply _ _ _ (ix3 b d k) (ix3 b 0 k) (fun a => ?_)).trans ?_
  · match a with
    | ⟨0, _⟩ => rfl
    | ⟨1, _⟩ => rfl
    | ⟨2, _⟩ => rfl
  rw [maximumf_apply, broadcastInDim_scalar_apply, constant_apply]
  refine congrArg₂ max ?_ rfl
  rw [hostSqrt_apply]
  refine congrArg Ideal.sqrt ?_
  refine (broadcastInDim_apply _ _ _ (ix3 b 0 k) (ix2 b k) (fun a => ?_)).trans ?_
  · match a with
    | ⟨0, _⟩ => rfl
    | ⟨1, _⟩ => rfl
  rw [midSum_apply _ _ (by decide)]
  rfl

/-! ## The flattening and the row normalisation -/

/-- The 32 × 512 × 64 table laid out as 32 rows of 32768 reads, at (b, j), the table at (b, j / 64, j % 64):
    (b · 512 + j / 64) · 64 + j % 64 = b · 32768 + j. -/
theorem flatten_apply (V : FVec Ideal S32x512x64 .f32) (b : Fin 32) (j : Fin 32768) :
    shapeCast S32x32768 V shapeCasts_S32x512x64_S32x32768 (ix2 b j)
      = V (ix3 b ⟨j.val / 64, by have := j.isLt; omega⟩ ⟨j.val % 64, Nat.mod_lt _ (by decide)⟩) := by
  refine shapeCast_apply V _ (ix2 b j) _ ?_
  rw [Shape.rowMajor_val_three, Shape.rowMajor_val_two]
  show (b.val * 512 + j.val / 64) * 64 + j.val % 64 = b.val * 32768 + j.val
  omega

section Lane
variable {A B : Nat}

/-- The index a with m put back on the second axis is (a, m). -/
theorem lift_lane (h : (⟨2, ![A, B]⟩ : Shape).Reduces [1] ⟨1, ![A]⟩) (a : Fin A) (m : Fin B) :
    h.lift (ix1 a) m = ix2 a m :=
  funext fun e => Fin.ext (by match e with | ⟨0, _⟩ => rfl | ⟨1, _⟩ => rfl)

/-- The sum over the second axis from zero, at a: ∑ₘ V(a, m). -/
theorem laneSum_apply (V : FVec Ideal ⟨2, ![A, B]⟩ .f32) (h' : (⟨2, ![A, B]⟩ : Shape).ReducesTo [1] ⟨1, ![A]⟩)
    (h : (⟨2, ![A, B]⟩ : Shape).Reduces [1] ⟨1, ![A]⟩) (hu : 0 < S_.numel) (a : Fin A) :
    Host.reduceAdd V (constant (F := Ideal) S_ .f32 0x00000000#32) h' hu (ix1 a) = ∑ m : Fin B, V (ix2 a m) := by
  rw [hostReduceAdd_apply, Ideal.hostReduceAdd_single h' h, constant_apply, Ideal.ofBits_zero_f32, zero_add]
  exact Finset.sum_congr rfl fun m _ => congrArg V (lift_lane h a m)
end Lane

/-- Each entry over the larger of its row's Euclidean norm (over the 32768 entries) and ε. -/
theorem outT_apply (W : FVec Ideal S32x32768 .f32) (b : Fin 32) (j : Fin 32768) :
    outT W (ix2 b j)
      = Ideal.div (W (ix2 b j)) (max (Ideal.sqrt (∑ j' : Fin 32768, W (ix2 b j') * W (ix2 b j'))) epsL2) := by
  unfold outT
  rw [hostDivf_apply]
  refine congrArg (Ideal.div _) ?_
  refine (broadcastInDim_apply (s := S32x1) (t := S32x32768) _ _ _ (ix2 b j) (ix2 b (0 : Fin 1)) (fun a => ?_)).trans ?_
  · match a with
    | ⟨0, _⟩ => rfl
    | ⟨1, _⟩ => rfl
  rw [maximumf_apply, broadcastInDim_scalar_apply, constant_apply]
  refine congrArg₂ max ?_ rfl
  rw [hostSqrt_apply]
  refine congrArg Ideal.sqrt ?_
  refine (broadcastInDim_apply _ _ _ (ix2 b 0) (ix1 b) (fun a => ?_)).trans ?_
  · match a with
    | ⟨0, _⟩ => rfl
  rw [laneSum_apply _ _ (by decide)]
  rfl

/-- The 32768 entries of a flattened row enumerate every (feature, cluster) pair exactly once. -/
theorem sum_flat_row {M : Type*} [AddCommMonoid M] (g : Fin 512 → Fin 64 → M) :
    (∑ j : Fin 32768, g ⟨j.val / 64, by have := j.isLt; omega⟩ ⟨j.val % 64, Nat.mod_lt _ (by decide)⟩)
      = ∑ d : Fin 512, ∑ k : Fin 64, g d k := by
  rw [← Fintype.sum_prod_type']
  symm
  refine Fintype.sum_equiv (finProdFinEquiv (m := 512) (n := 64)) _ _ ?_
  rintro ⟨d, k⟩
  have h1 : (k.val + 64 * d.val) / 64 = d.val := by have := k.isLt; omega
  have h2 : (k.val + 64 * d.val) % 64 = k.val := by have := k.isLt; omega
  simp only [finProdFinEquiv, Equiv.coe_fn_mk]
  congr 1 <;> exact Fin.ext (by simp [h1, h2])

/-! ## The chain -/

/-- The column-normalised aggregate at (b, d, k) is the specification's. -/
theorem intra_eq (x : FVec Ideal S32x2048x512 .f32) (P : FVec Ideal S32x2048x64 .f32) (c2 : FVec Ideal S1x512x64 .f32)
    (b : Fin 32) (d : Fin 512) (k : Fin 64) :
    intraT (vladT x P c2) (ix3 b d k) = vladIntra (fn3 P) (fn3 x) (slab0 c2) b d k := by
  rw [intraT_apply]
  simp only [vladT_apply]
  rfl

end Agg

/-- The aggregation of any probability table: the normalised aggregate laid out as 32 rows. -/
theorem aggT_eq (x : FVec Ideal S32x2048x512 .f32) (P : FVec Ideal S32x2048x64 .f32) (c2 : FVec Ideal S1x512x64 .f32) :
    aggT x P c2 = flat (vladOut (fn3 P) (fn3 x) (slab0 c2)) := by
  funext i
  obtain ⟨b, j, rfl⟩ : ∃ (b : Fin 32) (j : Fin 32768), i = ix2 b j := ⟨i 0, i 1, eq_ix2 i⟩
  unfold aggT
  rw [Agg.outT_apply]
  simp only [Agg.flatten_apply, Agg.intra_eq]
  rw [Agg.sum_flat_row (fun d k => vladIntra (fn3 P) (fn3 x) (slab0 c2) b d k * vladIntra (fn3 P) (fn3 x) (slab0 c2) b d k)]
  rfl

end Cert.ReferenceIdeal.Read

end
-- ==== Proof.RefRead.lean ====
/-
  The reference's result as a function of its arguments, in the specification's words: the normalised aggregate of the
  probabilities taken under the column mean and the centred-squares variance of the logits.
-/
import proofs.«143529_j19069654794906_1_alg».proof.Proof.RefStats
import proofs.«143529_j19069654794906_1_alg».proof.Proof.RefProb
import proofs.«143529_j19069654794906_1_alg».proof.Proof.RefAgg

noncomputable section

namespace Cert.ReferenceIdeal.Read

open Idealize.ShloMosaic Idealize.ShloMosaic.ValueIdx
open Cert.ReferenceIdeal Cert.ReferenceIdeal.Term Cert.Vlad

variable [Facts]
open Facts₀ Facts

/-- Flattened row `b · 2048 + n` is row `n` of batch `b`. -/
theorem flatRow_rowOf (a : Fin 32 → Fin 2048 → Fin 80 → EReal) (b : Fin 32) (n : Fin 2048) (k : Fin 80) :
    flatRow a (rowOf b n) k = a b n k := by
  unfold flatRow rowOf
  have hb := b.isLt
  have hn := n.isLt
  have e1 : (b.val * 2048 + n.val) / 2048 = b.val := by omega
  have e2 : (b.val * 2048 + n.val) % 2048 = n.val := by omega
  congr 1
  · exact Fin.ext e1
  · exact Fin.ext e2

variable (x : FVec Ideal S32x2048x512 .f32) (cl : FVec Ideal S512x80 .f32) (c2 : FVec Ideal S1x512x64 .f32) (g be : FVec Ideal S80 .f32)

/-- The logits table read per batch and row is the specification's. -/
theorem logits_rows : (fun b n k => logitsT x cl (ix2 (rowOf b n) k)) = assn (fn3 x) (fn2 cl) := by
  funext b n k
  rw [logits_apply, flatRow_rowOf]

/-- The column mean is the specification's mean over the flattened rows. -/
theorem mean_eq : fn1 (meanT (logitsT x cl)) = meanR (assn (fn3 x) (fn2 cl)) := by
  funext k
  unfold fn1 meanR
  rw [meanT_apply]
  exact congrArg (fun t => Ideal.div t rows) (Finset.sum_congr rfl fun i _ => logits_apply x cl i k)

/-- The column variance is the specification's centred-squares variance. -/
theorem var_eq : fn1 (varT (logitsT x cl)) = varR (assn (fn3 x) (fn2 cl)) := by
  funext k
  have hm : meanT (logitsT x cl) (ix1 k) = meanR (assn (fn3 x) (fn2 cl)) k := congrFun (mean_eq x cl) k
  unfold fn1 varR
  rw [varT_apply]
  refine congrArg (fun t => Ideal.div t rows) (Finset.sum_congr rfl fun i _ => ?_)
  rw [hm, logits_apply]

/-- The reference's result in the specification's words. -/
theorem result_eq :
    Term.result x cl c2 g be
      = flat (vladOut (probK (assn (fn3 x) (fn2 cl)) (meanR (assn (fn3 x) (fn2 cl))) (varR (assn (fn3 x) (fn2 cl))) (fn1 g) (fn1 be))
          (fn3 x) (slab0 c2)) := by
  unfold Term.result
  rw [aggT_eq]
  have hp : fn3 (probT (softT (normT (logitsT x cl) (meanT (logitsT x cl)) (varT (logitsT x cl)) g be)))
      = probK (assn (fn3 x) (fn2 cl)) (meanR (assn (fn3 x) (fn2 cl))) (varR (assn (fn3 x) (fn2 cl))) (fn1 g) (fn1 be) := by
    funext b n k
    show probT _ (ix3 b n k) = _
    rw [probT_apply, logits_rows, mean_eq, var_eq]
  rw [hp]

end Cert.ReferenceIdeal.Read

end
-- ==== Proof.Finite.lean ====
/-
  Under the precondition every entry of the features and of the cluster centres is a real number.
-/
import proofs.«143529_j19069654794906_1_alg».proof.Defs
import proofs.«143529_j19069654794906_1_alg».proof.Proof.Gen.Pre_finite_inputs
import Idealize.ShloMosaic.Lib.ReduceAll

noncomputable section

namespace Cert.Finite

open Idealize.ShloMosaic Idealize.ShloMosaic.TcCoe Idealize.SL.Sem

/-- The rank-zero shape has a single index. -/
instance subsingleton_scalar_idx : Subsingleton Cert.Pre_finite_inputs.S_.Idx := ⟨fun a b => funext fun d => d.elim0⟩

/-- The f32 pattern with all exponent bits set and no fraction bit denotes +∞. -/
theorem inf_bits : Ideal.ofBits .f32 0x7F800000#32 = (⊤ : EReal) := by
  simp [Ideal.ofBits, Ideal.ieee]

/-- An extended real whose absolute value max x (-x) lies strictly below +∞ is a real number. -/
theorem real_of_abs_lt (x : EReal)
    (hx : Ideal.cmp .olt (max x (-x)) (Ideal.ofBits .f32 0x7F800000#32) = 1#1) : ∃ r : ℝ, x = (r : EReal) := by
  rw [inf_bits] at hx
  have hlt : max x (-x) < ⊤ := by
    simp only [Ideal.cmp] at hx
    cases hd : decide (max x (-x) < ⊤) with
    | true => exact of_decide_eq_true hd
    | false => rw [hd] at hx; exact absurd hx (by decide)
  induction x using EReal.rec with
  | bot => simp at hlt
  | coe r => exact ⟨r, rfl⟩
  | top => simp at hlt

variable [hPre : Cert.Pre_finite_inputs.Facts]

/-- The features and the centres are finite. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) (fun a => a.elim0)
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, -⟩ := IntOp.andi_eq_one.1 h0
  obtain ⟨ha, hb⟩ := IntOp.andi_eq_one.1 h0
  refine ⟨fun i => ?_, fun i => ?_⟩
  · exact real_of_abs_lt _ (Host.reduce_andi_all _ _ _ _ _ ha i)
  · exact real_of_abs_lt _ (Host.reduce_andi_all _ _ _ _ _ hb i)

end Cert.Finite

end
-- ==== Proof.lean ====
/-
  The certificate. A soft-assignment aggregation of features in two kernel regions (column statistics of the logits,
  accumulated over the 32 batch blocks; then, per block, normalisation, softmax, residual aggregation and two
  norm divisions) against the same computation written with whole-array operations.

  Both idealized programs end with the normalised aggregate of the softmax probabilities of the normalised logits; they
  differ in the logits' column variance, E[a²] − E[a]² on one side and E[(a − E[a])²] on the other, which agree on finite
  logits, and finite features and centres (the precondition) make the logits finite. The ideal pass rewrote nothing.
-/
import proofs.«143529_j19069654794906_1_alg».proof.Defs
import proofs.«143529_j19069654794906_1_alg».proof.Proof.Gen.Kernel
import proofs.«143529_j19069654794906_1_alg».proof.Proof.Gen.Kernel.Frame
import proofs.«143529_j19069654794906_1_alg».proof.Proof.Gen.KernelIdeal
import proofs.«143529_j19069654794906_1_alg».proof.Proof.Gen.KernelIdeal.Frame
import proofs.«143529_j19069654794906_1_alg».proof.Proof.Gen.ReferenceIdeal
import proofs.«143529_j19069654794906_1_alg».proof.Proof.Gen.Pre_finite_inputs
import proofs.«143529_j19069654794906_1_alg».proof.Proof.KRun
import proofs.«143529_j19069654794906_1_alg».proof.Proof.KGlue
import proofs.«143529_j19069654794906_1_alg».proof.Proof.RefRun
import proofs.«143529_j19069654794906_1_alg».proof.Proof.RefRead
import proofs.«143529_j19069654794906_1_alg».proof.Proof.Finite
import Idealize.ShloMosaic.Adequacy
import Idealize.ShloMosaic.Init

noncomputable section

namespace Cert.Proof

open Idealize.ShloMosaic Idealize.SL.Sem Cert.Vlad

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end at the normalised aggregate; the two variances agree because the logits are finite. -/
theorem algebraic : Cert.algebraic_KernelIdeal_ReferenceIdeal := by
  intro m ρ m' ρ' hpre hagree
  refine ⟨fun c => Cert.KernelIdeal.Glue.value m c, ?_, ?_⟩
  · exact (θ_run Cert.KernelIdeal.defs _ _).mono
      (fun _ h c => ⟨(h c).1.trans (Cert.KernelIdeal.Glue.W4_result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]
    obtain ⟨hx, hcl⟩ := Cert.Finite.of_pre m hpre c
    obtain ⟨hm, hv⟩ := stats_eq _ (assn_finite (fn3 (m ((c.tc : Thread Cert.KernelIdeal.nD Cert.KernelIdeal.τ).loc Cert.KernelIdeal.main_arg0)))
      (fn2 (m ((c.tc : Thread Cert.KernelIdeal.nD Cert.KernelIdeal.τ).loc Cert.KernelIdeal.main_arg1))) (fun b n d => hx _) (fun d k => hcl _))
    refine (Cert.ReferenceIdeal.Read.result_eq _ _ _ _ _).trans ?_
    unfold Cert.KernelIdeal.Glue.value Cert.KernelIdeal.Glue.logits
    rw [hm, hv]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
